-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x512x512 : Shape := ⟨4, ![64, 4, 512, 512]⟩
abbrev S_ : Shape := ⟨0, ![]⟩

class Facts : Prop where
  bcast_S_S64x4x512x512 : S_.BroadcastsInDim S64x4x512x512 (![] : Fin 0 → Fin S64x4x512x512.rank)
  reducesTo_S64x4x512x512_S_d0_1_2_3 : S64x4x512x512.ReducesTo [0, 1, 2, 3] S_
  h_S_ : 0 < S_.numel

variable [Facts]

def fn {F : FTy → Type} [FloatOps F] (main_arg0 : FVec F S64x4x512x512 .f32) : IVec S_ 1 :=
  let main_v0 : FVec F S64x4x512x512 .f32 := Host.absf main_arg0
  let main_cst : FVec F S_ .f32 := constant S_ .f32 0x7F800000#32
  let main_v1 : FVec F S64x4x512x512 .f32 := broadcastInDim S64x4x512x512 ![] bcast_S_S64x4x512x512 main_cst
  let main_v2 : IVec S64x4x512x512 1 := cmpf .olt main_v0 main_v1
  let main_c : IVec S_ 1 := constantI S_ 1 1#1
  let main_v3 : IVec S_ 1 := (fun x v => Host.reduce IntOp.andi x v reducesTo_S64x4x512x512_S_d0_1_2_3 h_S_) main_v2 main_c
  main_v3
-- ==== Kernel.lean ====
abbrev S64x4x512x512 : Shape := ⟨4, ![64, 4, 512, 512]⟩
abbrev S2x8x128 : Shape := ⟨3, ![2, 8, 128]⟩
abbrev S1x1x512x512 : Shape := ⟨4, ![1, 1, 512, 512]⟩
abbrev S1x8x128 : Shape := ⟨3, ![1, 8, 128]⟩
abbrev S8x128 : Shape := ⟨2, ![8, 128]⟩
abbrev S1x1x512 : Shape := ⟨3, ![1, 1, 512]⟩
abbrev S1x1x512x1 : Shape := ⟨4, ![1, 1, 512, 1]⟩
abbrev S1x1x1 : Shape := ⟨3, ![1, 1, 1]⟩
abbrev S1x1x1x1 : Shape := ⟨4, ![1, 1, 1, 1]⟩
abbrev S2x1x1 : Shape := ⟨3, ![2, 1, 1]⟩
abbrev S2 : Shape := ⟨1, ![2]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S64x4x512x512, .f32⟩
  | .hbm, ⟨1, _⟩ => ⟨S2x8x128, .f32⟩
  | .hbm, ⟨2, _⟩ => ⟨S2x1x1, .f32⟩
  | .hbm, ⟨3, _⟩ => ⟨S2, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | _, _ => ⟨S64x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_24 : BitVec 32 := 0#32
  let v42 : BitVec 1 := Scalar.cmpi .ne v41 c0_i32_24
  v42

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  let c0_i32_0 : BitVec 32 := 0#32
  let c0_i32_1 : BitVec 32 := 0#32
  ![v1.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  let c0_i32_0 : BitVec 32 := 0#32
  let c0_i32_1 : BitVec 32 := 0#32
  ![v1.toNat, c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x512x512_S1x1x512x512_0_0_0_0 : ∀ a, (![0, 0, 0, 0] : Fin 4 → Nat) a + S1x1x512x512.size a ≤ S1x1x512x512.size a
  h_S1x1x512x512 : 0 < S1x1x512x512.numel
  rotates_S1x1x512x512_d3 : S1x1x512x512.Rotates 3 none
  rotates_S1x1x512x512_d2 : S1x1x512x512.Rotates 2 none
  reduces_S1x1x512x512_S1x1x512 : S1x1x512x512.Reduces [3] S1x1x512
  shapeCasts_S1x1x512_S1x1x512x1 : S1x1x512.ShapeCasts S1x1x512x1
  reduces_S1x1x512x1_S1x1x1 : S1x1x512x1.Reduces [2] S1x1x1
  shapeCasts_S1x1x1_S1x1x1x1 : S1x1x1.ShapeCasts S1x1x1x1
  inpos_S1x1x1x1_p0_0_0_0 : ∀ a, (![0, 0, 0, 0] : Fin 4 → Nat) a < S1x1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S64x4x512x512.size a
  hwx0_0 : ∀ i : grid0.Coords, EltTy.bits .f32 = 32 ∨ (Rect.block (s := S64x4x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S64x4x512x512.size a
  hwx0_1 : ∀ i : grid0.Coords, EltTy.bits .f32 = 32 ∨ (Rect.block (s := S64x4x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S64x4x512x512.size a
  hwx0_2 : ∀ i : grid0.Coords, EltTy.bits .f32 = 32 ∨ (Rect.block (s := S64x4x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x4x512x512 : Shape := ⟨4, ![64, 4, 512, 512]⟩
abbrev S64x1x512x512 : Shape := ⟨4, ![64, 1, 512, 512]⟩
abbrev S64x1x512x1 : Shape := ⟨4, ![64, 1, 512, 1]⟩
abbrev S64x1x512x511 : Shape := ⟨4, ![64, 1, 512, 511]⟩
abbrev S_ : Shape := ⟨0, ![]⟩
abbrev S64x1x1x512 : Shape := ⟨4, ![64, 1, 1, 512]⟩
abbrev S64x1x511x512 : Shape := ⟨4, ![64, 1, 511, 512]⟩

abbrev nBuf : Space → Nat
  | .hbm => 43
  | .vmem => 0
  | .smem => 0
  | _ => 0

abbrev bufTy : (tb : Table) → Fin (tcTables nBuf tb) → BufTy
  | .hbm, ⟨0, _⟩ => ⟨S64x4x512x512, .f32⟩
  | .hbm, ⟨1, _⟩ => ⟨S64x1x512x512, .f32⟩
  | .hbm, ⟨2, _⟩ => ⟨S64x1x512x512, .f32⟩
  | .hbm, ⟨3, _⟩ => ⟨S64x1x512x512, .f32⟩
  | .hbm, ⟨4, _⟩ => ⟨S64x1x512x1, .f32⟩
  | .hbm, ⟨5, _⟩ => ⟨S64x1x512x511, .f32⟩
  | .hbm, ⟨6, _⟩ => ⟨S64x1x512x512, .f32⟩
  | .hbm, ⟨7, _⟩ => ⟨S64x1x512x511, .f32⟩
  | .hbm, ⟨8, _⟩ => ⟨S64x1x512x1, .f32⟩
  | .hbm, ⟨9, _⟩ => ⟨S64x1x512x512, .f32⟩
  | .hbm, ⟨10, _⟩ => ⟨S64x1x512x512, .f32⟩
  | .hbm, ⟨11, _⟩ => ⟨S_, .f32⟩
  | .hbm, ⟨12, _⟩ => ⟨S64x1x512x512, .f32⟩
  | .hbm, ⟨13, _⟩ => ⟨S64x1x512x512, .f32⟩
  | .hbm, ⟨14, _⟩ => ⟨S64x1x512x512, .f32⟩
  | .hbm, ⟨15, _⟩ => ⟨S64x1x1x512, .f32⟩
  | .hbm, ⟨16, _⟩ => ⟨S64x1x511x512, .f32⟩
  | .hbm, ⟨17, _⟩ => ⟨S64x1x512x512, .f32⟩
  | .hbm, ⟨18, _⟩ => ⟨S64x1x511x512, .f32⟩
  | .hbm, ⟨19, _⟩ => ⟨S64x1x1x512, .f32⟩
  | .hbm, ⟨20, _⟩ => ⟨S64x1x512x512, .f32⟩
  | .hbm, ⟨21, _⟩ => ⟨S64x1x512x512, .f32⟩
  | .hbm, ⟨22, _⟩ => ⟨S_, .f32⟩
  | .hbm, ⟨23, _⟩ => ⟨S64x1x512x512, .f32⟩
  | .hbm, ⟨24, _⟩ => ⟨S64x1x512x512, .f32⟩
  | .hbm, ⟨25, _⟩ => ⟨S64x1x512x512, .f32⟩
  | .hbm, ⟨26, _⟩ => ⟨S_, .f32⟩
  | .hbm, ⟨27, _⟩ => ⟨S64x1x512x512, .f32⟩
  | .hbm, ⟨28, _⟩ => ⟨S64x1x512x512, .f32⟩
  | .hbm, ⟨29, _⟩ => ⟨S_, .f32⟩
  | .hbm, ⟨30, _⟩ => ⟨S64x1x512x512, .f32⟩
  | .hbm, ⟨31, _⟩ => ⟨S64x1x512x512, .f32⟩
  | .hbm, ⟨32, _⟩ => ⟨S64x1x512x512, .f32⟩
  | .hbm, ⟨33, _⟩ => ⟨S_, .f32⟩
  | .hbm, ⟨34, _⟩ => ⟨S64x1x512x512, .f32⟩
  | .hbm, ⟨35, _⟩ => ⟨S64x1x512x512, .f32⟩
  | .hbm, ⟨36, _⟩ => ⟨S64x1x512x512, .f32⟩
  | .hbm, ⟨37, _⟩ => ⟨S64x1x512x512, .f32⟩
  | .hbm, ⟨38, _⟩ => ⟨S64x1x512x512, .f32⟩
  | .hbm, ⟨39, _⟩ => ⟨S64x1x512x512, .f32⟩
  | .hbm, ⟨40, _⟩ => ⟨S_, .f32⟩
  | .hbm, ⟨41, _⟩ => ⟨S_, .f32⟩
  | .hbm, ⟨42, _⟩ => ⟨S_, .f32⟩
  | _, _ => ⟨S64x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_v3 : Ref sig .tc := ⟨.hbm, 6, rfl⟩
abbrev main_call1_v0 : Ref sig .tc := ⟨.hbm, 7, rfl⟩
abbrev main_call1_v1 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call2_v0 : Ref sig .tc := ⟨.hbm, 15, rfl⟩
abbrev main_call2_v1 : Ref sig .tc := ⟨.hbm, 16, rfl⟩
abbrev main_v9 : Ref sig .tc := ⟨.hbm, 17, rfl⟩
abbrev main_call3_v0 : Ref sig .tc := ⟨.hbm, 18, rfl⟩
abbrev main_call3_v1 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  slices_S64x4x512x512_S64x1x512x512_0_3_0_0 : S64x4x512x512.Slices ![0, 3, 0, 0] S64x1x512x512
  slices_S64x4x512x512_S64x1x512x512_0_2_0_0 : S64x4x512x512.Slices ![0, 2, 0, 0] S64x1x512x512
  slices_S64x4x512x512_S64x1x512x512_0_1_0_0 : S64x4x512x512.Slices ![0, 1, 0, 0] S64x1x512x512
  slices_S64x1x512x512_S64x1x512x1_0_0_0_511 : S64x1x512x512.Slices ![0, 0, 0, 511] S64x1x512x1
  slices_S64x1x512x512_S64x1x512x511_0_0_0_0 : S64x1x512x512.Slices ![0, 0, 0, 0] S64x1x512x511
  concatenates_S64x1x512x1_S64x1x512x511_S64x1x512x512_d3 : Shape.Concatenates [S64x1x512x1, S64x1x512x511] S64x1x512x512 3
  slices_S64x1x512x512_S64x1x512x511_0_0_0_1 : S64x1x512x512.Slices ![0, 0, 0, 1] S64x1x512x511
  slices_S64x1x512x512_S64x1x512x1_0_0_0_0 : S64x1x512x512.Slices ![0, 0, 0, 0] S64x1x512x1
  concatenates_S64x1x512x511_S64x1x512x1_S64x1x512x512_d3 : Shape.Concatenates [S64x1x512x511, S64x1x512x1] S64x1x512x512 3
  bcast_S_S64x1x512x512 : S_.BroadcastsInDim S64x1x512x512 (![] : Fin 0 → Fin S64x1x512x512.rank)
  slices_S64x1x512x512_S64x1x1x512_0_0_511_0 : S64x1x512x512.Slices ![0, 0, 511, 0] S64x1x1x512
  slices_S64x1x512x512_S64x1x511x512_0_0_0_0 : S64x1x512x512.Slices ![0, 0, 0, 0] S64x1x511x512
  concatenates_S64x1x1x512_S64x1x511x512_S64x1x512x512_d2 : Shape.Concatenates [S64x1x1x512, S64x1x511x512] S64x1x512x512 2
  slices_S64x1x512x512_S64x1x511x512_0_0_1_0 : S64x1x512x512.Slices ![0, 0, 1, 0] S64x1x511x512
  slices_S64x1x512x512_S64x1x1x512_0_0_0_0 : S64x1x512x512.Slices ![0, 0, 0, 0] S64x1x1x512
  concatenates_S64x1x511x512_S64x1x1x512_S64x1x512x512_d2 : Shape.Concatenates [S64x1x511x512, S64x1x1x512] S64x1x512x512 2
  reducesTo_S64x1x512x512_S_d0_1_2_3 : S64x1x512x512.ReducesTo [0, 1, 2, 3] S_
  h_S_ : 0 < S_.numel

variable [Facts₀]

class Facts : Prop extends Facts₀ where

variable [Facts]
-- ==== Proof.LibWholeStore.lean ====
/-
  A buffer read back after stores of which the last covers the whole shape.

  A store through the rectangle that starts at offset zero on every axis and has the shape's own extents writes every
  element. So whatever the buffer held before and whatever earlier stores wrote, reading the buffer back after such a
  store gives the stored value: an accumulator overwritten whole, a fill followed by an update of the whole block.
  Any view, any shape, any element type.
-/
import Idealize.ShloMosaic.Lib.Pipeline.FrameBody
import Idealize.ShloMosaic.Lib.Pipeline.Value

noncomputable section

namespace Cert.WholeStore

open Idealize.ShloMosaic

variable {Val : EltTy → Type} [∀ e, Nonempty (Val e)] {S : Shape} {e : EltTy}

/-- The last store covers the shape: the read-back is its payload, whatever came before. -/
theorem read_writes_cons_whole {sig : RefSig} {κ : Kind} {sp : Space} (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self,
    View.mem_set_unit_zero h inb y⟩), View.canon_cons_unit_zero h]

/-- One store covering the shape: the read-back is its payload. -/
theorem read_writes_whole {sig : RefSig} {κ : Kind} {sp : Space} (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : View.Piece Val S e)]) = w :=
  read_writes_cons_whole v f h inb w []

/-- A load through that rectangle of contents read through a whole view is those contents. -/
theorem readAt_whole {sig : RefSig} {κ : Kind} {sp : Space} (v : View sig κ sp S e) (f : v.ty.Contents Val)
    {off : Fin S.rank → Nat} (h : off = fun _ => 0) (inb : ∀ a, off a + S.size a ≤ S.size a) :
    v.readAt Val (Rect.unit off S.size inb) f = v.read Val f := by
  rw [View.readAt_eq_ld, View.ld_unit_zero h]

/-- The zero offsets of rank 2, 3 and 4, as the printed rectangles spell them. -/
theorem zeros2 : (![0, 0] : Fin 2 → Nat) = fun _ => 0 := by funext a; fin_cases a <;> rfl
theorem zeros3 : (![0, 0, 0] : Fin 3 → Nat) = fun _ => 0 := by funext a; fin_cases a <;> rfl
theorem zeros4 : (![0, 0, 0, 0] : Fin 4 → Nat) = fun _ => 0 := by funext a; fin_cases a <;> rfl

end Cert.WholeStore

end
-- ==== Proof.KBody.lean ====
/-
  The kernel's body at one grid point, as a triple over whole staging buffers, in its three control cases.

  At every point the body loads the three planes, reduces the squared residual over the plane to one scalar and adds
  it to every entry of the 8 × 128 accumulator it keeps in scratch. At the first point of a row of thirty-two it
  first overwrites the accumulator with zeros; at the last it copies the accumulator into the output block. The
  planes' buffers are handed back as they came. Stated for every float instance.
-/
import proofs.«424194_j78881369358757_4_alg».proof.Proof.Gen.Kernel.Launch
import proofs.«424194_j78881369358757_4_alg».proof.Proof.Gen.Kernel.Skeleton
import proofs.«424194_j78881369358757_4_alg».proof.Proof.Gen.Kernel.Points
import proofs.«424194_j78881369358757_4_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

/-- The first branch's condition, from the grid coordinates: the column is 0. -/
abbrev cond1 (i : grid0.Coords) : Prop := (Scalar.cmpi .ne (Scalar.extui (Scalar.cmpi .eq (BitVec.ofNat 32 (i 1).val) 0#32)) 0#32) = 1#1
/-- The second branch's condition: the column is 31. -/
abbrev cond2 (i : grid0.Coords) : Prop := k0_cond2 i = 1#1

/-- The accumulator after a point that starts a row: the plane's scalar added to zeros. -/
abbrev accFirst (x0 x1 x2 : Vec F S1x1x512x512 .f32) : Vec F S8x128 .f32 := k0_pay1 (k0_pay4 x0 x1 x2) (k0_pay3 (F := F))
/-- The accumulator after any other point: the plane's scalar added to what it held. -/
abbrev accNext (x0 x1 x2 : Vec F S1x1x512x512 .f32) (xs : Vec F S8x128 .f32) : Vec F S8x128 .f32 := k0_pay1 (k0_pay4 x0 x1 x2) xs

set_option maxHeartbeats 1000000 in
/-- A point that starts a row and does not end it: the accumulator, whatever it held, ends at `accFirst`; the output
    block's buffer is not touched. -/
theorem run_first (c : Dev nD) (i : grid0.Coords)
    (arg2 : Memref sig .tc .vmem S1x1x512x512 .f32) (harg2 : arg2.IsWhole) (arg3 : Memref sig .tc .vmem S1x1x512x512 .f32) (harg3 : arg3.IsWhole)
    (arg4 : Memref sig .tc .vmem S1x1x512x512 .f32) (harg4 : arg4.IsWhole) (arg5 : Memref sig .tc .vmem S1x8x128 .f32) (harg5 : arg5.IsWhole)
    (arg6 : Memref sig .tc .vmem S8x128 .f32) (harg6 : arg6.IsWhole) (hc1 : cond1 i) (hc2 : ¬cond2 i)
    (x0 x1 x2 : Vec F S1x1x512x512 .f32) (xo : Vec F S1x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accFirst x0 x1 x2)) -∗ K ⟨⟩))
      ⊢ wp frame (wpE (defs₀ (F := F)) Variants.none c none) E (cc0__pinn_res_kernel i arg2 harg2 arg3 harg3 arg4 harg4 arg5 harg5 arg6 harg6) K := by
  simp only [cc0__pinn_res_kernel_eq_skeleton]; unfold cc0__pinn_res_kernel_skel
  unfold owns
  iintro ⟨⟨%f0, %hf0, H0⟩, ⟨%f1, %hf1, H1⟩, ⟨%f2, %hf2, H2⟩, ⟨%fo, %hfo, Ho⟩, ⟨%ds, %fs, -, Hs⟩, Hk⟩
  obtain rfl := harg2.eq_unread hf0; obtain rfl := harg3.eq_unread hf1; obtain rfl := harg4.eq_unread hf2
  obtain rfl := harg5.eq_unread hfo
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr; swap; · iexact Hs
  ipureintro
  sl_unfold_run_names
  rw [read_writes_cons_whole _ _ zeros2]
  simp only [View.readAt_eq_ld, harg2.read_unread, harg3.read_unread, harg4.read_unread,
    View.ld_unit_zero (S := S1x1x512x512) zeros4, View.readCov_unit_zero (S := S8x128) _ zeros2]

set_option maxHeartbeats 1000000 in
/-- A point inside a row: the accumulator goes from `xs` to `accNext … xs`; the output block's buffer is not touched. -/
theorem run_mid (c : Dev nD) (i : grid0.Coords)
    (arg2 : Memref sig .tc .vmem S1x1x512x512 .f32) (harg2 : arg2.IsWhole) (arg3 : Memref sig .tc .vmem S1x1x512x512 .f32) (harg3 : arg3.IsWhole)
    (arg4 : Memref sig .tc .vmem S1x1x512x512 .f32) (harg4 : arg4.IsWhole) (arg5 : Memref sig .tc .vmem S1x8x128 .f32) (harg5 : arg5.IsWhole)
    (arg6 : Memref sig .tc .vmem S8x128 .f32) (harg6 : arg6.IsWhole) (hc1 : ¬cond1 i) (hc2 : ¬cond2 i)
    (x0 x1 x2 : Vec F S1x1x512x512 .f32) (xo : Vec F S1x8x128 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accNext x0 x1 x2 xs)) -∗ K ⟨⟩))
      ⊢ wp frame (wpE (defs₀ (F := F)) Variants.none c none) E (cc0__pinn_res_kernel i arg2 harg2 arg3 harg3 arg4 harg4 arg5 harg5 arg6 harg6) K := by
  simp only [cc0__pinn_res_kernel_eq_skeleton]; unfold cc0__pinn_res_kernel_skel
  unfold owns
  iintro ⟨⟨%f0, %hf0, H0⟩, ⟨%f1, %hf1, H1⟩, ⟨%f2, %hf2, H2⟩, ⟨%fo, %hfo, Ho⟩, ⟨%fs, %hfs, Hs⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr; swap; · iexact Hs
  ipureintro
  sl_unfold_run_names
  rw [read_writes_whole _ _ zeros2]
  simp only [View.readAt_eq_ld, harg2.read_unread, harg3.read_unread, harg4.read_unread, harg6.read_unread,
    View.ld_unit_zero (S := S1x1x512x512) zeros4, View.ld_unit_zero (S := S8x128) zeros2]

set_option maxHeartbeats 1000000 in
/-- The last point of a row: the accumulator goes from `xs` to `accNext … xs`, and the output block's buffer, whatever
    it held, ends at that accumulator under a leading unit axis. -/
theorem run_last (c : Dev nD) (i : grid0.Coords)
    (arg2 : Memref sig .tc .vmem S1x1x512x512 .f32) (harg2 : arg2.IsWhole) (arg3 : Memref sig .tc .vmem S1x1x512x512 .f32) (harg3 : arg3.IsWhole)
    (arg4 : Memref sig .tc .vmem S1x1x512x512 .f32) (harg4 : arg4.IsWhole) (arg5 : Memref sig .tc .vmem S1x8x128 .f32) (harg5 : arg5.IsWhole)
    (arg6 : Memref sig .tc .vmem S8x128 .f32) (harg6 : arg6.IsWhole) (hc1 : ¬cond1 i) (hc2 : cond2 i)
    (x0 x1 x2 : Vec F S1x1x512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (accNext x0 x1 x2 xs)) ∗ owns (c : Thread nD τ) arg6 fullShare (accNext x0 x1 x2 xs)) -∗ K ⟨⟩))
      ⊢ wp frame (wpE (defs₀ (F := F)) Variants.none c none) E (cc0__pinn_res_kernel i arg2 harg2 arg3 harg3 arg4 harg4 arg5 harg5 arg6 harg6) K := by
  simp only [cc0__pinn_res_kernel_eq_skeleton]; unfold cc0__pinn_res_kernel_skel
  unfold owns
  iintro ⟨⟨%f0, %hf0, H0⟩, ⟨%f1, %hf1, H1⟩, ⟨%f2, %hf2, H2⟩, ⟨%dd, %fo, -, Ho⟩, ⟨%fs, %hfs, Hs⟩, Hk⟩
  obtain rfl := harg2.eq_unread hf0; obtain rfl := harg3.eq_unread hf1; obtain rfl := harg4.eq_unread hf2
  obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; swap; · iexact Ho
    ipureintro
    sl_unfold_run_names
    rw [read_writes_whole _ _ zeros3]
    simp only [View.readAt_eq_ld, harg2.read_unread, harg3.read_unread, harg4.read_unread, harg6.read_unread,
      View.ld_unit_zero (S := S1x1x512x512) zeros4, View.ld_unit_zero (S := S8x128) zeros2, View.readCov_unit_zero (S := S8x128) _ zeros2]
  iexists _; isplitr; swap; · iexact Hs
  ipureintro
  sl_unfold_run_names
  rw [read_writes_whole _ _ zeros2]
  simp only [View.readAt_eq_ld, harg2.read_unread, harg3.read_unread, harg4.read_unread, harg6.read_unread,
    View.ld_unit_zero (S := S1x1x512x512) zeros4, View.ld_unit_zero (S := S8x128) zeros2]

end Cert.Kernel.Hand

end
-- ==== Proof.KData.lean ====
/-
  The pipeline's proof data and the body obligation.

  The grid's 64 points run row by row, 32 to a row; point t works on batch entry t. The three input windows stage
  planes 1, 2, 3 of that entry out of the one argument array; they are fetched at every point and handed back as
  fetched. The accumulator in scratch holds, after point t, the plane scalars of t's row up to t added in order from
  zeros (`accAt`): the invariant carries it from point to point. The output window is idle except at a row's last
  point, where it receives the accumulator. Each input window holds a third share of the argument array.
-/
import proofs.«424194_j78881369358757_4_alg».proof.Proof.KBody

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (m : (ℓ : Loc nD τ sig) → Buf (Elt F) ℓ)

/-- Core `c`'s TensorCore buffers when the region is entered: the launch memory (no host operation runs before it). -/
abbrev V (c : Dev nD) (b : Ref sig .tc) : Buf (Elt F) ((c : Thread nD τ).loc b) := m ((c : Thread nD τ).loc b)

/-- Window `w`'s block at point `t`, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three planes at point `t`, at their literal type. -/
abbrev pl0 (c : Dev nD) (t : Fin cfg0.N) : Vec F S1x1x512x512 .f32 := iblk m c 0 t
abbrev pl1 (c : Dev nD) (t : Fin cfg0.N) : Vec F S1x1x512x512 .f32 := iblk m c 1 t
abbrev pl2 (c : Dev nD) (t : Fin cfg0.N) : Vec F S1x1x512x512 .f32 := iblk m c 2 t

/-- The accumulator after the body at position `n`: restarted from zeros at a row's first point, else updated from
    what the point before left. -/
def accAt (c : Dev nD) : (n : ℕ) → n < cfg0.N → Vec F S8x128 .f32
  | 0, hn => accFirst (pl0 m c ⟨0, hn⟩) (pl1 m c ⟨0, hn⟩) (pl2 m c ⟨0, hn⟩)
  | n + 1, hn =>
    if (n + 1) % 32 = 0 then accFirst (pl0 m c ⟨n + 1, hn⟩) (pl1 m c ⟨n + 1, hn⟩) (pl2 m c ⟨n + 1, hn⟩)
    else accNext (pl0 m c ⟨n + 1, hn⟩) (pl1 m c ⟨n + 1, hn⟩) (pl2 m c ⟨n + 1, hn⟩) (accAt c n (Nat.lt_of_succ_lt hn))

theorem accAt_first (c : Dev nD) (t : Fin cfg0.N) (h : t.val % 32 = 0) :
    accAt m c t.val t.isLt = accFirst (pl0 m c t) (pl1 m c t) (pl2 m c t) := by
  obtain ⟨n, hn⟩ := t
  cases n with
  | zero => rfl
  | succ n => exact (if_pos h).trans rfl

theorem accAt_next (c : Dev nD) (t : Fin cfg0.N) (h : ¬t.val % 32 = 0) :
    accAt m c t.val t.isLt
      = accNext (pl0 m c t) (pl1 m c t) (pl2 m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch operand as a memref. -/
abbrev scM : Memref sig .tc .vmem S8x128 .f32 := Memref.whole cc0_scratch0

/-- The class invariant with the scratch as an owned memref. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch holds anything; afterwards what the
    point before left. The generator register rides along at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accAt m c t.val t.isLt)
  Φ t := PhiS m c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (accAt m c t.val t.isLt) := by dsimp only [dats]

/-- A fetched input window's buffer holds its block. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-! ## The branch conditions and the idle table, decided over the grid -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 = 31 :=
  (by decide +kernel : ∀ t : Fin grid0.N, cond2 (grid0.coords t) ↔ t.val % 32 = 31)
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬cond2 (grid0.coords t) → cfg0.idle 3 (grid0.coords t) = true := by decide +kernel
theorem noFlush_3 : ∀ t : Fin cfg0.N, ¬cond2 (grid0.coords t) → (cfg0.win 3).flush t = false := by decide +kernel
theorem live_3 : ∀ t : Fin cfg0.N, cond2 (grid0.coords t) → cfg0.idle 3 (grid0.coords t) = false := by decide +kernel

/-! ## The body obligation -/

/-- Each window's current staging memref at point `t`, as the pipeline passes it, and its wholeness. -/
abbrev ms0 (t : Fin cfg0.N) : Memref sig .tc .vmem S1x1x512x512 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1x1x512x512 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x1x512x512 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x8x128 .f32 := win0_3.stage (cfg0.slots t 3)
abbrev hs3 (t : Fin cfg0.N) : (ms3 t).IsWhole := Facts₀.hstage0_3 ((cfg0.slots t 3).cast Facts₀.nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live_0 t, after_0]
theorem leaves_1 (c : Dev nD) (t : Fin cfg0.N) :
    (dats m 0 c).leavesExact 1 t = owns (c : Thread nD τ) (ms1 t) fullShare (iblk m c 1 t) := by
  unfold Dat.leavesExact; rw [live_1 t, after_1]
theorem leaves_2 (c : Dev nD) (t : Fin cfg0.N) :
    (dats m 0 c).leavesExact 2 t = owns (c : Thread nD τ) (ms2 t) fullShare (iblk m c 2 t) := by
  unfold Dat.leavesExact; rw [live_2 t, after_2]

set_option maxHeartbeats 4000000 in
/-- The body at any point: the inputs' buffers hold their blocks, the decided conditions say which case the point is
    in, the invariant hands over the scratch at what the point before left (anything at the first point) and takes it
    back at this point's accumulator; an idle output buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 64 := lt_of_lt_of_eq t.isLt (show cfg0.N = 64 from N_0)
  by_cases h1 : t.val % 32 = 0
  · have h2 : ¬t.val % 32 = 31 := by omega
    rw [Dat.leavesExact_idle (dats m 0 c) 3 t (idle_3 t (fun h => h2 ((hcond2 t).mp h))) (noFlush_3 t (fun h => h2 ((hcond2 t).mp h)))]
    rw [accAt_first m c t h1]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h1) (fun h => h2 ((hcond2 t).mp h)) (pl0 m c t) (pl1 m c t) (pl2 m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h1) (fun h => h2 ((hcond2 t).mp h)) (pl0 m c t) (pl1 m c t) (pl2 m c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun h => h1 (by rw [h])
    rw [accAt_next m c t h1, PhiS_castSucc m c t, PhiS_pos m c _ _ hz]
    by_cases h2 : t.val % 32 = 31
    · rw [show (dats m 0 c).leavesExact 3 t = owns (c : Thread nD τ) (ms3 t) fullShare ((dats m 0 c).after 3 t) from by
        unfold Dat.leavesExact; rw [live_3 t ((hcond2 t).mpr h2)], after_3, accAt_next m c t h1]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        (fun h => h1 ((hcond1 t).mp h)) ((hcond2 t).mpr h2) (pl0 m c t) (pl1 m c t) (pl2 m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle_3 t (fun h => h2 ((hcond2 t).mp h))) (noFlush_3 t (fun h => h2 ((hcond2 t).mp h)))]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        (fun h => h1 ((hcond1 t).mp h)) (fun h => h2 ((hcond2 t).mp h)) (pl0 m c t) (pl1 m c t) (pl2 m c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The run of the whole program: the kernel region, then the five host operations.

  The argument array is read by three input windows, so the region is entered with the array's full share dealt in
  three (a half and two quarters), one part per window, and left with the three parts joined again; the output array
  is the fourth window's, held whole. Between the region and the host operations the core holds every unscoped
  buffer whole: the argument as launched, the output array at what the region's write-backs left, the others as
  launched. The host operations then run over those buffers. At the end the argument is read back unchanged and the
  result buffer holds the operations' value of the output array.
-/
import proofs.«424194_j78881369358757_4_alg».proof.Proof.KData
import Idealize.ShloMosaic.Lib.Pipeline.Regions
import Idealize.ShloMosaic.Lib.Pipeline.Frame
import Idealize.ShloMosaic.Lib.StableHlo.Run

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁

/-- What rides beside the buffers: that the core owes nothing, and the generator register at some state. -/
abbrev R (c : Dev nD) : sProp 𝕄 :=
  iprop((∃ W, owes (c : Thread nD τ) (0 : CellTallies nD τ sig Unit) W) ∗ (∃ r, prngReg c r))

/-- Core `c`'s buffers at launch, as a valuation. -/
abbrev V₀ (c : Dev nD) : Valuation τ sig (Elt F) := fun b => m ((c : Dev nD), b)

/-- The output array after the region: the entry contents overwritten by the two write-backs. -/
def outArr (c : Dev nD) : Buf (Elt F) ((c : Thread nD τ).loc main_v0) := (dats m 0 c).arrAt 3 cfg0.N

/-- The buffers after the region: the output array at `outArr`, the others as launched. -/
def V₁ (c : Dev nD) : Valuation τ sig (Elt F) := Function.update (V₀ m c) (Proc.devRef .tc main_v0) (outArr m c)

theorem V₁_v0 (c : Dev nD) : V₁ m c (Proc.devRef .tc main_v0) = outArr m c := Function.update_self ..
theorem V₁_ne (c : Dev nD) (b : DevRef τ sig) (h : b ≠ Proc.devRef .tc main_v0) : V₁ m c b = V₀ m c b := Function.update_of_ne h ..

/-! ## The arrays: one buffer behind three windows -/

/-- The distinct buffers behind the windows' arrays: the argument and the output array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The pipeline's arrays at contents `G`, window by window: three parts of the argument's share, the output whole. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right.left} G 1)
          ∗ (((c : Thread nD τ).loc main_arg0) ↦{fullShare.right.right} G 2) ∗ (((c : Thread nD τ).loc main_v0) ↦{fullShare} G 3)) := by
  unfold Dat.arrays; rw [bigSep_W0]
  rw [(arr_whole0 0).set_eq_univ, (arr_whole0 3).set_eq_univ]
  rfl

/-- ENTRY: the two buffers whole make the four windows' arrays at the entry contents. -/
theorem arrays_in (c : Dev nD) :
    (Pipeline.arrBufs spec0 c (V m c) : sProp 𝕄) ⊢ (dats m 0 c).arrays ((dats m 0 c).arrAt · 0) := by
  rw [arrBufs_eq, arrays_eq4]
  iintro ⟨Ha, Ho⟩
  ihave Ha := (pointsTo_share (PosShare.mem_left_op_right fullShare)).1 $$ Ha
  icases Ha with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  iexact Ho

/-- An input window's array is never written: after every point it holds the entry contents. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_arg0 := ((dats m 0 c).arrAt_in 2 rfl n).trans (A_eq m c 2)

/-- EXIT: the four windows' arrays at the final contents make the two buffers whole, the argument as launched. -/
theorem arrays_out (c : Dev nD) :
    ((dats m 0 c).arrays ((dats m 0 c).arrAt · cfg0.N) : sProp 𝕄)
      ⊢ iprop((((c : Thread nD τ).loc main_arg0) ↦{fullShare} V m c main_arg0) ∗ (((c : Thread nD τ).loc main_v0) ↦{fullShare} outArr m c)) := by
  rw [arrays_eq4]
  rw [arrAt_in0, arrAt_in1, arrAt_in2]
  iintro ⟨Hl, Hrl, Hrr, Ho⟩
  isplitr [Ho]
  · iapply (pointsTo_share (PosShare.mem_left_op_right fullShare)).2
    isplitl [Hl]; · iexact Hl
    iapply (pointsTo_share (PosShare.mem_left_op_right fullShare.right)).2
    isplitl [Hrl]; · iexact Hrl
    iexact Hrr
  · iexact Ho

/-- The buffers no window stages do not change across the region. -/
theorem rest_eq (c : Dev nD) :
    (Pipeline.unscopedRest (Ix := Unit) (Name := ℕ) (U := UR sig nD τ) (Lvl := ℕ) spec0 c (fun b => V₁ m c (Proc.devRef .tc b)) : sProp 𝕄)
      = Pipeline.unscopedRest spec0 c (V m c) := by
  rw [unscopedRest0_eq, unscopedRest0_eq]
  rw [V₁_ne m c _ (StableHlo.devRef_ne_of_ne (by decide)), V₁_ne m c _ (StableHlo.devRef_ne_of_ne (by decide)),
    V₁_ne m c _ (StableHlo.devRef_ne_of_ne (by decide)), V₁_ne m c _ (StableHlo.devRef_ne_of_ne (by decide)),
    V₁_ne m c _ (StableHlo.devRef_ne_of_ne (by decide))]

/-- The scratch at named contents is the scratch at some contents. -/
theorem scratch_forget (c : Dev nD) (X : Vec F S8x128 .f32) :
    (owns (c : Thread nD τ) scM fullShare X : sProp 𝕄)
      ⊢ iprop(∃ f : Buf (Elt F) ((c : Thread nD τ).loc cc0_scratch0), ((c : Thread nD τ).loc cc0_scratch0) ↦{fullShare} f) := by
  rw [owns_whole]; iintro H; iexists _; iexact H

/-! ## The segments -/

/-- An unscoped TensorCore reference is among the unscoped device buffers. -/
theorem mem_uc (b : Ref sig .tc) (h : b.isScoped = false) : (Proc.devRef .tc b : DevRef τ sig) ∈ Pipeline.ucRefs τ sig := by
  unfold Pipeline.ucRefs StableHlo.tcRefs
  rw [Finset.filter_map]
  exact Finset.mem_map_of_mem _ (Finset.mem_filter.mpr ⟨Finset.mem_univ _, by simpa using h⟩)

theorem hostOps1_fresh : ∀ op ∈ (hostOps1 : List (HloOp τ sig (Elt F))), op.fresh = ∅ := by
  intro _ h; (repeat (cases h with | head => rfl | tail _ h => ?_)); exact nomatch h

/-- THE HOST SEGMENT: the five operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V₁ m) R

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V₀ m c) = unscopedBufs c (V m c) from (Pipeline.unscopedBufs_held c _).symm,
      Pipeline.unscopedBufs_split₀ cfgs 0 winFacts₀0.arr_unscoped c (V m c)]
    iintro ⟨⟨⟨Hab, Hur⟩, HO, Hg⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hur
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = PhiS m c cfg0.N (le_refl _) from rfl,
      PhiS_pos m c _ _ (by decide), scopedRest0_eq]
    iintro ⟨HS, Hg⟩
    isplitl [Hg]; · iexact Hg
    isplitr; · iempintro
    iapply (scratch_forget c _); iexact HS
  hexit c := by
    rw [show StableHlo.held (c : Thread nD τ) (Pipeline.ucRefs τ sig) (V₁ m c) = unscopedBufs c (fun b => V₁ m c (Proc.devRef .tc b)) from (Pipeline.unscopedBufs_held c _).symm,
      Pipeline.unscopedBufs_split₀ cfgs 0 winFacts₀0.arr_unscoped c (fun b => V₁ m c (Proc.devRef .tc b)), rest_eq, arrBufs_eq]
    iintro ⟨Ha, HO, Hg, Hur⟩
    ihave Ha := (arrays_out m c) $$ Ha
    icases Ha with ⟨Ha0, Hv0⟩
    imodintro
    isplitr [HO Hg]
    · isplitr [Hur]
      · isplitl [Ha0]
        · rw [V₁_ne m c _ (StableHlo.devRef_ne_of_ne (by decide))]; iexact Ha0
        · rw [V₁_v0]; iexact Hv0
      · iexact Hur
    · isplitl [HO]
      · unfold Pipeline.Dat.owesAt Pipeline.owesWithin
        icases HO with ⟨%W, -, HO⟩; iexists W; iexact HO
      · iexact Hg

/-- @main as the list of the two. -/
abbrev segs : List (Pipeline.Seg (pcfgs (F := F)) adm (dats m) () defs₀ 𝒱₀ L lv) := [.region (reg0 m), .host (seg1 m)]

/-- The launch element: the pipeline library's, at its staging cells. -/
def u₀ : UR sig nD τ :=
  initOf (Pipeline.cells (Pipeline.pin (pcfgs (F := F)) adm) cellOf_inj) (Pipeline.launchToks (Pipeline.pin (pcfgs (F := F)) adm) cellOf_inj)

/-- The buffers at the end: the host operations run from the buffers the region left. -/
abbrev V₂ (c : Dev nD) : Valuation τ sig (Elt F) := StableHlo.after hostOps1 (V₁ m c)

set_option backward.isDefEq.respectTransparency.types false in
/-- THE RUN: every weakly fair execution terminates, and in every final state the result buffer holds the host
    operations' value of the buffers the region left, and the argument holds what it held at launch. -/
theorem run_main : θ_run defs (onTc (τ := τ) (main (F := F))) ⟨m, fun _ => 0, ρ⟩ (fun r => ∀ c : Dev nD,
      r.2.mem ((c.tc : Thread nD τ).loc main_v4) = V₂ m c (Proc.devRef .tc main_v4)
      ∧ r.2.mem ((c.tc : Thread nD τ).loc main_arg0) = V₂ m c (Proc.devRef .tc main_arg0)) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu; imodintro
      isplitl [Hu]
      · iapply (show (ownU _ : sProp 𝕄) ⊢ BI.own (EP (F := F) (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (V₂ m c) ∗ (∃ r, prngReg c r)))
    (hch := ⟨fun _ => .rfl, fun _ => .rfl, fun c => by
      show iprop(StableHlo.held (c : Thread nD τ) (Pipeline.ucRefs τ sig) (StableHlo.after hostOps1 (V₁ m c)) ∗ R c) ⊢ _
      iintro ⟨Hh, HO, Hg⟩
      isplitr [HO]
      · isplitl [Hh]; · iexact Hh
        iexact Hg
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v4) = V₂ m c (Proc.devRef .tc main_v4)
      ∧ s.mem ((c : Thread nD τ).loc main_arg0) = V₂ m c (Proc.devRef .tc main_arg0))
    (hfin := fun c s' => by
      unfold StableHlo.held
      iintro ⟨⟨Hh, -⟩, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imodintro
      isplitr; · ipureintro; exact ⟨h _ (mem_uc _ (by decide)), h _ (mem_uc _ (by decide))⟩
      iexact HSI)
    (hQ := fun _ h => h)

end Cert.Kernel.Hand

end
-- ==== Proof.LibTableTotal.lean ====
/-
  Totals of a table at the ideal instance, however the table is laid out and however the sum is staged.

  A float sum at the ideal instance is an exact sum of extended reals, and addition of extended reals is
  commutative and associative, so a total does not depend on the order or grouping of its terms:
  * summing a reshaped array is summing the array (a reshape is a bijection of the index sets);
  * summing a one-stage reduction over all its reduced indices is the total (the reduced index of a source
    index partitions the source indices into fibres);
  * hence a reduction along some axes, reshaped, then reduced into a shape of unit axes, is the total;
  * the host's one-stage reduction from the zero word into a shape of unit axes is the total as well.
  No finiteness is used anywhere.
-/
import Idealize.ShloMosaic.PureOps.Ideal
import Idealize.ShloMosaic.PureOps.Ideal.Laws
import Idealize.ShloMosaic.Lib.Pipeline.Value

noncomputable section

namespace Cert.TableTotal

open Idealize.ShloMosaic

/-- Summing a reshaped array is summing the array: the reshape reads the source through a bijection of indices. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

/-- The sum, over every reduced index, of a one-stage reduction is the total over the source: each source
    index lies in exactly one fibre of the map to reduced indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- A sum staged in two: reduce along some axes, reshape the partial sums, reduce those into a shape whose
    axes all have extent one. At that shape's index the result is the total over the source. -/
theorem two_stage_total {s s₁ s₂ t : Shape} {φ : FTy} {ax₁ : List (Fin s.rank)} {ax₂ : List (Fin s₂.rank)}
    (q : FVec Ideal s φ) (acc : BitVec φ.bits) (h₁ : s.Reduces ax₁ s₁) (hc : s₁.ShapeCasts s₂)
    (h₂ : s₂.Reduces ax₂ t) (ht : ∀ b, t.size b = 1) (hφ : FKind.Formats φ) (hacc : acc = FKind.add.neutral φ hφ)
    (j : t.Idx) :
    multiReduction .add ax₂ t (shapeCast s₂ (multiReduction .add ax₁ s₁ q acc h₁ hφ hacc) hc) acc h₂ hφ hacc j
      = ∑ i : s.Idx, q i := by
  rw [Ideal.multiReduction_add_total _ _ h₂ ht hφ hacc j, sum_shapeCast]
  exact sum_reduceAdd h₁ q

/-- The same total read through a further reshape of the unit-shaped result. -/
theorem two_stage_total_cast {s s₁ s₂ t t' : Shape} {φ : FTy} {ax₁ : List (Fin s.rank)} {ax₂ : List (Fin s₂.rank)}
    (q : FVec Ideal s φ) (acc : BitVec φ.bits) (h₁ : s.Reduces ax₁ s₁) (hc : s₁.ShapeCasts s₂)
    (h₂ : s₂.Reduces ax₂ t) (ht : ∀ b, t.size b = 1) (hφ : FKind.Formats φ) (hacc : acc = FKind.add.neutral φ hφ)
    (hc' : t.ShapeCasts t') (k : t'.Idx) :
    shapeCast t' (multiReduction .add ax₂ t (shapeCast s₂ (multiReduction .add ax₁ s₁ q acc h₁ hφ hacc) hc) acc h₂ hφ hacc) hc' k
      = ∑ i : s.Idx, q i :=
  two_stage_total q acc h₁ hc h₂ ht hφ hacc _

/-- A shape whose axes all have extent one has one index. -/
theorem idx_eq_of_unit {s : Shape} (hs : ∀ a, s.size a = 1) (k z : s.Idx) : k = z :=
  funext fun a => Fin.ext (by have := (k a).isLt; have := (z a).isLt; have := hs a; omega)

/-- The host's one-stage sum from the zero word into a shape of unit axes is the total over the source. -/
theorem host_total {s t u : Shape} {axes : List (Fin s.rank)} (x : FVec Ideal s .f32) (h' : s.ReducesTo axes t)
    (ht : ∀ b, t.size b = 1) (hu : 0 < u.numel) (j : t.Idx) :
    Host.reduceAdd x (constant (F := Ideal) u .f32 0x00000000#32) h' hu j = ∑ i : s.Idx, x i := by
  show Ideal.hostReduceAdd h' x (Ideal.ofBits .f32 0x00000000#32) j = _
  rw [Ideal.hostReduceAdd_total h' ht, Ideal.ofBits_zero_f32, zero_add]

end Cert.TableTotal

end
-- ==== Proof.TailValueK.lean ====
/-
  The five host operations after the kernel: the entries [b, 0, 0] of the 2 × 8 × 128 result are sliced out, laid flat,
  summed from zero and square-rooted. At the ideal instance the result is the square root of the sum of those two
  entries; no operation writes the argument.
-/
import proofs.«424194_j78881369358757_4_alg».proof.Proof.Gen.Kernel.Launch
import proofs.«424194_j78881369358757_4_alg».proof.Proof.LibTableTotal
import Idealize.ShloMosaic.Lib.StableHlo.Run
import Idealize.ShloMosaic.Lib.ValueIdx
import Idealize.ShloMosaic.Lib.Pipeline.Value
import Idealize.ShloMosaic.PureOps.Ideal.Laws

noncomputable section

namespace Cert.Kernel.TailValue

open Idealize.ShloMosaic Idealize.ShloMosaic.TcCoe Idealize.ShloMosaic.ValueIdx Cert.Kernel Cert.Kernel.Gen

variable {F : FTy → Type} [FloatOps F]

/-- A reference that is none of the five results is written by no operation of the tail. -/
private theorem tail_not_written (b : Ref sig .tc)
    (hb : b ≠ main_v1 ∧ b ≠ main_v2 ∧ b ≠ main_cst ∧ b ≠ main_v3 ∧ b ≠ main_v4) :
    ∀ op ∈ (hostOps1 (F := F)), Proc.devRef .tc b ∉ op.writes := by
  obtain ⟨h1, h2, hc, h3, h4⟩ := hb
  intro op hop
  simp only [List.mem_cons, List.mem_nil_iff, or_false] at hop
  rcases hop with rfl | rfl | rfl | rfl | rfl
  · rw [StableHlo.unary_writes, Finset.mem_singleton]; exact StableHlo.devRef_ne_of_ne h1
  · rw [StableHlo.reshape_writes, Finset.mem_singleton]; exact StableHlo.devRef_ne_of_ne h2
  · rw [StableHlo.nullary_writes, Finset.mem_singleton]; exact StableHlo.devRef_ne_of_ne hc
  · rw [StableHlo.binary_writes, Finset.mem_singleton]; exact StableHlo.devRef_ne_of_ne h3
  · rw [StableHlo.unary_writes, Finset.mem_singleton]; exact StableHlo.devRef_ne_of_ne h4

/-- A rank-1 index set is its one coordinate's range … -/
private def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-- The slice laid flat, read at `k`, is the array's entry `[k, 0, 0]`: the flat position `k` is the position of
    `[k, 0, 0]` in the 2 × 1 × 1 slice, and the slice's offsets are zero. -/
private theorem flat_slice_apply {α : Type} (X : S2x8x128.Idx → α) (k : Fin 2) :
    shapeCast S2 (extractStridedSlice S2x1x1 ![0, 0, 0] X slices_S2x8x128_S2x1x1_0_0_0) shapeCasts_S2x1x1_S2 (ix1 k)
      = X (ix3 k (0 : Fin 8) (0 : Fin 128)) := by
  rw [shapeCast_apply _ shapeCasts_S2x1x1_S2 (ix1 k) (ix3 k (0 : Fin 1) (0 : Fin 1))
    (by rw [Shape.rowMajor_val_three, Shape.rowMajor_val_one]; show (k.val * 1 + 0) * 1 + 0 = k.val; omega)]
  exact extractStridedSlice_apply _ X _ _ (ix3 k (0 : Fin 8) (0 : Fin 128)) fun a =>
    match a with
    | ⟨0, _⟩ => (Nat.zero_add _).symm
    | ⟨1, _⟩ => rfl
    | ⟨2, _⟩ => rfl

/-- No operation of the tail writes the argument: it holds after them what it held before. -/
theorem tail_arg0 (W : Valuation τ sig (Elt F)) :
    StableHlo.after (hostOps1 (F := F)) W (Proc.devRef .tc main_arg0) = W (Proc.devRef .tc main_arg0) :=
  StableHlo.after_of_forall_not_mem (b := Proc.devRef .tc main_arg0) hostOps1 W (tail_not_written main_arg0 (by decide))

/-- Nor the kernel's result array. -/
theorem tail_v0 (W : Valuation τ sig (Elt F)) :
    StableHlo.after (hostOps1 (F := F)) W (Proc.devRef .tc main_v0) = W (Proc.devRef .tc main_v0) :=
  StableHlo.after_of_forall_not_mem (b := Proc.devRef .tc main_v0) hostOps1 W (tail_not_written main_v0 (by decide))

/-- The tail's result at the ideal instance: the square root of the sum of the result array's entries [0,0,0] and [1,0,0]. -/
theorem tail_v4 (W : Valuation τ sig (Elt Ideal)) (X : S2x8x128.Idx → EReal) (hX : W (Proc.devRef .tc main_v0) = X) :
    StableHlo.after (hostOps1 (F := Ideal)) W (Proc.devRef .tc main_v4)
      = Host.sqrt (F := Ideal) (φ := .f32) (fun _ : S_.Idx => X (ix3 (0 : Fin 2) (0 : Fin 8) (0 : Fin 128)) + X (ix3 (1 : Fin 2) (0 : Fin 8) (0 : Fin 128))) := by
  show StableHlo.after hostOps1 _ (Proc.devRef .tc main_v4) = _
  after_results
  rw [hX]
  refine congrArg (Host.sqrt (F := Ideal) (φ := .f32)) (funext fun j => ?_)
  -- the host sum from the zero word into the scalar shape is the total over the two flat entries
  refine (Cert.TableTotal.host_total _ reducesTo_S2_S_d0 (fun b => b.elim0) h_S_ j).trans ?_
  rw [sum_idx1, Fin.sum_univ_two]
  exact congrArg₂ (· + ·) (flat_slice_apply X 0) (flat_slice_apply X 1)

end Cert.Kernel.TailValue

end
-- ==== Proof.KFinal.lean ====
/-
  The argument at the end of the run: no host operation after the region writes it, and the region hands it back as
  launched, so the final memory holds the launch contents there.
-/
import proofs.«424194_j78881369358757_4_alg».proof.Proof.KRun
import proofs.«424194_j78881369358757_4_alg».proof.Proof.TailValueK

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (m : (ℓ : Loc nD τ sig) → Buf (Elt F) ℓ)

/-- The argument buffer at the end is the argument buffer at launch. -/
theorem final_arg0 (c : Dev nD) : V₂ m c (Proc.devRef .tc main_arg0) = m ((c : Thread nD τ).loc main_arg0) := by
  show StableHlo.after hostOps1 (V₁ m c) (Proc.devRef .tc main_arg0) = _
  rw [Cert.Kernel.TailValue.tail_arg0, V₁_ne m c _ (StableHlo.devRef_ne_of_ne (by decide))]

end Cert.Kernel.Hand

end
-- ==== Proof.KIBody.lean ====
/-
  The kernel's body at one grid point, as a triple over whole staging buffers, in its three control cases.

  At every point the body loads the three planes, reduces the squared residual over the plane to one scalar and adds
  it to every entry of the 8 × 128 accumulator it keeps in scratch. At the first point of a row of thirty-two it
  first overwrites the accumulator with zeros; at the last it copies the accumulator into the output block. The
  planes' buffers are handed back as they came. Stated for every float instance.
-/
import proofs.«424194_j78881369358757_4_alg».proof.Proof.Gen.KernelIdeal.Launch
import proofs.«424194_j78881369358757_4_alg».proof.Proof.Gen.KernelIdeal.Skeleton
import proofs.«424194_j78881369358757_4_alg».proof.Proof.Gen.KernelIdeal.Points
import proofs.«424194_j78881369358757_4_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

/-- The first branch's condition, from the grid coordinates: the column is 0. -/
abbrev cond1 (i : grid0.Coords) : Prop := (Scalar.cmpi .ne (Scalar.extui (Scalar.cmpi .eq (BitVec.ofNat 32 (i 1).val) 0#32)) 0#32) = 1#1
/-- The second branch's condition: the column is 31. -/
abbrev cond2 (i : grid0.Coords) : Prop := k0_cond2 i = 1#1

/-- The accumulator after a point that starts a row: the plane's scalar added to zeros. -/
abbrev accFirst (x0 x1 x2 : Vec F S1x1x512x512 .f32) : Vec F S8x128 .f32 := k0_pay1 (k0_pay4 x0 x1 x2) (k0_pay3 (F := F))
/-- The accumulator after any other point: the plane's scalar added to what it held. -/
abbrev accNext (x0 x1 x2 : Vec F S1x1x512x512 .f32) (xs : Vec F S8x128 .f32) : Vec F S8x128 .f32 := k0_pay1 (k0_pay4 x0 x1 x2) xs

set_option maxHeartbeats 1000000 in
/-- A point that starts a row and does not end it: the accumulator, whatever it held, ends at `accFirst`; the output
    block's buffer is not touched. -/
theorem run_first (c : Dev nD) (i : grid0.Coords)
    (arg2 : Memref sig .tc .vmem S1x1x512x512 .f32) (harg2 : arg2.IsWhole) (arg3 : Memref sig .tc .vmem S1x1x512x512 .f32) (harg3 : arg3.IsWhole)
    (arg4 : Memref sig .tc .vmem S1x1x512x512 .f32) (harg4 : arg4.IsWhole) (arg5 : Memref sig .tc .vmem S1x8x128 .f32) (harg5 : arg5.IsWhole)
    (arg6 : Memref sig .tc .vmem S8x128 .f32) (harg6 : arg6.IsWhole) (hc1 : cond1 i) (hc2 : ¬cond2 i)
    (x0 x1 x2 : Vec F S1x1x512x512 .f32) (xo : Vec F S1x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accFirst x0 x1 x2)) -∗ K ⟨⟩))
      ⊢ wp frame (wpE (defs₀ (F := F)) Variants.none c none) E (cc0__pinn_res_kernel i arg2 harg2 arg3 harg3 arg4 harg4 arg5 harg5 arg6 harg6) K := by
  simp only [cc0__pinn_res_kernel_eq_skeleton]; unfold cc0__pinn_res_kernel_skel
  unfold owns
  iintro ⟨⟨%f0, %hf0, H0⟩, ⟨%f1, %hf1, H1⟩, ⟨%f2, %hf2, H2⟩, ⟨%fo, %hfo, Ho⟩, ⟨%ds, %fs, -, Hs⟩, Hk⟩
  obtain rfl := harg2.eq_unread hf0; obtain rfl := harg3.eq_unread hf1; obtain rfl := harg4.eq_unread hf2
  obtain rfl := harg5.eq_unread hfo
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr; swap; · iexact Hs
  ipureintro
  sl_unfold_run_names
  rw [read_writes_cons_whole _ _ zeros2]
  simp only [View.readAt_eq_ld, harg2.read_unread, harg3.read_unread, harg4.read_unread,
    View.ld_unit_zero (S := S1x1x512x512) zeros4, View.readCov_unit_zero (S := S8x128) _ zeros2]

set_option maxHeartbeats 1000000 in
/-- A point inside a row: the accumulator goes from `xs` to `accNext … xs`; the output block's buffer is not touched. -/
theorem run_mid (c : Dev nD) (i : grid0.Coords)
    (arg2 : Memref sig .tc .vmem S1x1x512x512 .f32) (harg2 : arg2.IsWhole) (arg3 : Memref sig .tc .vmem S1x1x512x512 .f32) (harg3 : arg3.IsWhole)
    (arg4 : Memref sig .tc .vmem S1x1x512x512 .f32) (harg4 : arg4.IsWhole) (arg5 : Memref sig .tc .vmem S1x8x128 .f32) (harg5 : arg5.IsWhole)
    (arg6 : Memref sig .tc .vmem S8x128 .f32) (harg6 : arg6.IsWhole) (hc1 : ¬cond1 i) (hc2 : ¬cond2 i)
    (x0 x1 x2 : Vec F S1x1x512x512 .f32) (xo : Vec F S1x8x128 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accNext x0 x1 x2 xs)) -∗ K ⟨⟩))
      ⊢ wp frame (wpE (defs₀ (F := F)) Variants.none c none) E (cc0__pinn_res_kernel i arg2 harg2 arg3 harg3 arg4 harg4 arg5 harg5 arg6 harg6) K := by
  simp only [cc0__pinn_res_kernel_eq_skeleton]; unfold cc0__pinn_res_kernel_skel
  unfold owns
  iintro ⟨⟨%f0, %hf0, H0⟩, ⟨%f1, %hf1, H1⟩, ⟨%f2, %hf2, H2⟩, ⟨%fo, %hfo, Ho⟩, ⟨%fs, %hfs, Hs⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr; swap; · iexact Hs
  ipureintro
  sl_unfold_run_names
  rw [read_writes_whole _ _ zeros2]
  simp only [View.readAt_eq_ld, harg2.read_unread, harg3.read_unread, harg4.read_unread, harg6.read_unread,
    View.ld_unit_zero (S := S1x1x512x512) zeros4, View.ld_unit_zero (S := S8x128) zeros2]

set_option maxHeartbeats 1000000 in
/-- The last point of a row: the accumulator goes from `xs` to `accNext … xs`, and the output block's buffer, whatever
    it held, ends at that accumulator under a leading unit axis. -/
theorem run_last (c : Dev nD) (i : grid0.Coords)
    (arg2 : Memref sig .tc .vmem S1x1x512x512 .f32) (harg2 : arg2.IsWhole) (arg3 : Memref sig .tc .vmem S1x1x512x512 .f32) (harg3 : arg3.IsWhole)
    (arg4 : Memref sig .tc .vmem S1x1x512x512 .f32) (harg4 : arg4.IsWhole) (arg5 : Memref sig .tc .vmem S1x8x128 .f32) (harg5 : arg5.IsWhole)
    (arg6 : Memref sig .tc .vmem S8x128 .f32) (harg6 : arg6.IsWhole) (hc1 : ¬cond1 i) (hc2 : cond2 i)
    (x0 x1 x2 : Vec F S1x1x512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (accNext x0 x1 x2 xs)) ∗ owns (c : Thread nD τ) arg6 fullShare (accNext x0 x1 x2 xs)) -∗ K ⟨⟩))
      ⊢ wp frame (wpE (defs₀ (F := F)) Variants.none c none) E (cc0__pinn_res_kernel i arg2 harg2 arg3 harg3 arg4 harg4 arg5 harg5 arg6 harg6) K := by
  simp only [cc0__pinn_res_kernel_eq_skeleton]; unfold cc0__pinn_res_kernel_skel
  unfold owns
  iintro ⟨⟨%f0, %hf0, H0⟩, ⟨%f1, %hf1, H1⟩, ⟨%f2, %hf2, H2⟩, ⟨%dd, %fo, -, Ho⟩, ⟨%fs, %hfs, Hs⟩, Hk⟩
  obtain rfl := harg2.eq_unread hf0; obtain rfl := harg3.eq_unread hf1; obtain rfl := harg4.eq_unread hf2
  obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; swap; · iexact Ho
    ipureintro
    sl_unfold_run_names
    rw [read_writes_whole _ _ zeros3]
    simp only [View.readAt_eq_ld, harg2.read_unread, harg3.read_unread, harg4.read_unread, harg6.read_unread,
      View.ld_unit_zero (S := S1x1x512x512) zeros4, View.ld_unit_zero (S := S8x128) zeros2, View.readCov_unit_zero (S := S8x128) _ zeros2]
  iexists _; isplitr; swap; · iexact Hs
  ipureintro
  sl_unfold_run_names
  rw [read_writes_whole _ _ zeros2]
  simp only [View.readAt_eq_ld, harg2.read_unread, harg3.read_unread, harg4.read_unread, harg6.read_unread,
    View.ld_unit_zero (S := S1x1x512x512) zeros4, View.ld_unit_zero (S := S8x128) zeros2]

end Cert.KernelIdeal.Hand

end
-- ==== Proof.KIData.lean ====
/-
  The pipeline's proof data and the body obligation.

  The grid's 64 points run row by row, 32 to a row; point t works on batch entry t. The three input windows stage
  planes 1, 2, 3 of that entry out of the one argument array; they are fetched at every point and handed back as
  fetched. The accumulator in scratch holds, after point t, the plane scalars of t's row up to t added in order from
  zeros (`accAt`): the invariant carries it from point to point. The output window is idle except at a row's last
  point, where it receives the accumulator. Each input window holds a third share of the argument array.
-/
import proofs.«424194_j78881369358757_4_alg».proof.Proof.KIBody

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (m : (ℓ : Loc nD τ sig) → Buf (Elt F) ℓ)

/-- Core `c`'s TensorCore buffers when the region is entered: the launch memory (no host operation runs before it). -/
abbrev V (c : Dev nD) (b : Ref sig .tc) : Buf (Elt F) ((c : Thread nD τ).loc b) := m ((c : Thread nD τ).loc b)

/-- Window `w`'s block at point `t`, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three planes at point `t`, at their literal type. -/
abbrev pl0 (c : Dev nD) (t : Fin cfg0.N) : Vec F S1x1x512x512 .f32 := iblk m c 0 t
abbrev pl1 (c : Dev nD) (t : Fin cfg0.N) : Vec F S1x1x512x512 .f32 := iblk m c 1 t
abbrev pl2 (c : Dev nD) (t : Fin cfg0.N) : Vec F S1x1x512x512 .f32 := iblk m c 2 t

/-- The accumulator after the body at position `n`: restarted from zeros at a row's first point, else updated from
    what the point before left. -/
def accAt (c : Dev nD) : (n : ℕ) → n < cfg0.N → Vec F S8x128 .f32
  | 0, hn => accFirst (pl0 m c ⟨0, hn⟩) (pl1 m c ⟨0, hn⟩) (pl2 m c ⟨0, hn⟩)
  | n + 1, hn =>
    if (n + 1) % 32 = 0 then accFirst (pl0 m c ⟨n + 1, hn⟩) (pl1 m c ⟨n + 1, hn⟩) (pl2 m c ⟨n + 1, hn⟩)
    else accNext (pl0 m c ⟨n + 1, hn⟩) (pl1 m c ⟨n + 1, hn⟩) (pl2 m c ⟨n + 1, hn⟩) (accAt c n (Nat.lt_of_succ_lt hn))

theorem accAt_first (c : Dev nD) (t : Fin cfg0.N) (h : t.val % 32 = 0) :
    accAt m c t.val t.isLt = accFirst (pl0 m c t) (pl1 m c t) (pl2 m c t) := by
  obtain ⟨n, hn⟩ := t
  cases n with
  | zero => rfl
  | succ n => exact (if_pos h).trans rfl

theorem accAt_next (c : Dev nD) (t : Fin cfg0.N) (h : ¬t.val % 32 = 0) :
    accAt m c t.val t.isLt
      = accNext (pl0 m c t) (pl1 m c t) (pl2 m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch operand as a memref. -/
abbrev scM : Memref sig .tc .vmem S8x128 .f32 := Memref.whole cc0_scratch0

/-- The class invariant with the scratch as an owned memref. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch holds anything; afterwards what the
    point before left. The generator register rides along at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accAt m c t.val t.isLt)
  Φ t := PhiS m c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (accAt m c t.val t.isLt) := by dsimp only [dats]

/-- A fetched input window's buffer holds its block. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-! ## The branch conditions and the idle table, decided over the grid -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 = 31 :=
  (by decide +kernel : ∀ t : Fin grid0.N, cond2 (grid0.coords t) ↔ t.val % 32 = 31)
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬cond2 (grid0.coords t) → cfg0.idle 3 (grid0.coords t) = true := by decide +kernel
theorem noFlush_3 : ∀ t : Fin cfg0.N, ¬cond2 (grid0.coords t) → (cfg0.win 3).flush t = false := by decide +kernel
theorem live_3 : ∀ t : Fin cfg0.N, cond2 (grid0.coords t) → cfg0.idle 3 (grid0.coords t) = false := by decide +kernel

/-! ## The body obligation -/

/-- Each window's current staging memref at point `t`, as the pipeline passes it, and its wholeness. -/
abbrev ms0 (t : Fin cfg0.N) : Memref sig .tc .vmem S1x1x512x512 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1x1x512x512 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x1x512x512 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x8x128 .f32 := win0_3.stage (cfg0.slots t 3)
abbrev hs3 (t : Fin cfg0.N) : (ms3 t).IsWhole := Facts₀.hstage0_3 ((cfg0.slots t 3).cast Facts₀.nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live_0 t, after_0]
theorem leaves_1 (c : Dev nD) (t : Fin cfg0.N) :
    (dats m 0 c).leavesExact 1 t = owns (c : Thread nD τ) (ms1 t) fullShare (iblk m c 1 t) := by
  unfold Dat.leavesExact; rw [live_1 t, after_1]
theorem leaves_2 (c : Dev nD) (t : Fin cfg0.N) :
    (dats m 0 c).leavesExact 2 t = owns (c : Thread nD τ) (ms2 t) fullShare (iblk m c 2 t) := by
  unfold Dat.leavesExact; rw [live_2 t, after_2]

set_option maxHeartbeats 4000000 in
/-- The body at any point: the inputs' buffers hold their blocks, the decided conditions say which case the point is
    in, the invariant hands over the scratch at what the point before left (anything at the first point) and takes it
    back at this point's accumulator; an idle output buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 64 := lt_of_lt_of_eq t.isLt (show cfg0.N = 64 from N_0)
  by_cases h1 : t.val % 32 = 0
  · have h2 : ¬t.val % 32 = 31 := by omega
    rw [Dat.leavesExact_idle (dats m 0 c) 3 t (idle_3 t (fun h => h2 ((hcond2 t).mp h))) (noFlush_3 t (fun h => h2 ((hcond2 t).mp h)))]
    rw [accAt_first m c t h1]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h1) (fun h => h2 ((hcond2 t).mp h)) (pl0 m c t) (pl1 m c t) (pl2 m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) scM (Memref.isWhole_whole _)
        ((hcond1 t).mpr h1) (fun h => h2 ((hcond2 t).mp h)) (pl0 m c t) (pl1 m c t) (pl2 m c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun h => h1 (by rw [h])
    rw [accAt_next m c t h1, PhiS_castSucc m c t, PhiS_pos m c _ _ hz]
    by_cases h2 : t.val % 32 = 31
    · rw [show (dats m 0 c).leavesExact 3 t = owns (c : Thread nD τ) (ms3 t) fullShare ((dats m 0 c).after 3 t) from by
        unfold Dat.leavesExact; rw [live_3 t ((hcond2 t).mpr h2)], after_3, accAt_next m c t h1]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        (fun h => h1 ((hcond1 t).mp h)) ((hcond2 t).mpr h2) (pl0 m c t) (pl1 m c t) (pl2 m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle_3 t (fun h => h2 ((hcond2 t).mp h))) (noFlush_3 t (fun h => h2 ((hcond2 t).mp h)))]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        (fun h => h1 ((hcond1 t).mp h)) (fun h => h2 ((hcond2 t).mp h)) (pl0 m c t) (pl1 m c t) (pl2 m c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of the whole program: the kernel region, then the five host operations.

  The argument array is read by three input windows, so the region is entered with the array's full share dealt in
  three (a half and two quarters), one part per window, and left with the three parts joined again; the output array
  is the fourth window's, held whole. Between the region and the host operations the core holds every unscoped
  buffer whole: the argument as launched, the output array at what the region's write-backs left, the others as
  launched. The host operations then run over those buffers. At the end the argument is read back unchanged and the
  result buffer holds the operations' value of the output array.
-/
import proofs.«424194_j78881369358757_4_alg».proof.Proof.KIData
import Idealize.ShloMosaic.Lib.Pipeline.Regions
import Idealize.ShloMosaic.Lib.Pipeline.Frame
import Idealize.ShloMosaic.Lib.StableHlo.Run

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁

/-- What rides beside the buffers: that the core owes nothing, and the generator register at some state. -/
abbrev R (c : Dev nD) : sProp 𝕄 :=
  iprop((∃ W, owes (c : Thread nD τ) (0 : CellTallies nD τ sig Unit) W) ∗ (∃ r, prngReg c r))

/-- Core `c`'s buffers at launch, as a valuation. -/
abbrev V₀ (c : Dev nD) : Valuation τ sig (Elt F) := fun b => m ((c : Dev nD), b)

/-- The output array after the region: the entry contents overwritten by the two write-backs. -/
def outArr (c : Dev nD) : Buf (Elt F) ((c : Thread nD τ).loc main_v0) := (dats m 0 c).arrAt 3 cfg0.N

/-- The buffers after the region: the output array at `outArr`, the others as launched. -/
def V₁ (c : Dev nD) : Valuation τ sig (Elt F) := Function.update (V₀ m c) (Proc.devRef .tc main_v0) (outArr m c)

theorem V₁_v0 (c : Dev nD) : V₁ m c (Proc.devRef .tc main_v0) = outArr m c := Function.update_self ..
theorem V₁_ne (c : Dev nD) (b : DevRef τ sig) (h : b ≠ Proc.devRef .tc main_v0) : V₁ m c b = V₀ m c b := Function.update_of_ne h ..

/-! ## The arrays: one buffer behind three windows -/

/-- The distinct buffers behind the windows' arrays: the argument and the output array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The pipeline's arrays at contents `G`, window by window: three parts of the argument's share, the output whole. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right.left} G 1)
          ∗ (((c : Thread nD τ).loc main_arg0) ↦{fullShare.right.right} G 2) ∗ (((c : Thread nD τ).loc main_v0) ↦{fullShare} G 3)) := by
  unfold Dat.arrays; rw [bigSep_W0]
  rw [(arr_whole0 0).set_eq_univ, (arr_whole0 3).set_eq_univ]
  rfl

/-- ENTRY: the two buffers whole make the four windows' arrays at the entry contents. -/
theorem arrays_in (c : Dev nD) :
    (Pipeline.arrBufs spec0 c (V m c) : sProp 𝕄) ⊢ (dats m 0 c).arrays ((dats m 0 c).arrAt · 0) := by
  rw [arrBufs_eq, arrays_eq4]
  iintro ⟨Ha, Ho⟩
  ihave Ha := (pointsTo_share (PosShare.mem_left_op_right fullShare)).1 $$ Ha
  icases Ha with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  iexact Ho

/-- An input window's array is never written: after every point it holds the entry contents. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_arg0 := ((dats m 0 c).arrAt_in 2 rfl n).trans (A_eq m c 2)

/-- EXIT: the four windows' arrays at the final contents make the two buffers whole, the argument as launched. -/
theorem arrays_out (c : Dev nD) :
    ((dats m 0 c).arrays ((dats m 0 c).arrAt · cfg0.N) : sProp 𝕄)
      ⊢ iprop((((c : Thread nD τ).loc main_arg0) ↦{fullShare} V m c main_arg0) ∗ (((c : Thread nD τ).loc main_v0) ↦{fullShare} outArr m c)) := by
  rw [arrays_eq4]
  rw [arrAt_in0, arrAt_in1, arrAt_in2]
  iintro ⟨Hl, Hrl, Hrr, Ho⟩
  isplitr [Ho]
  · iapply (pointsTo_share (PosShare.mem_left_op_right fullShare)).2
    isplitl [Hl]; · iexact Hl
    iapply (pointsTo_share (PosShare.mem_left_op_right fullShare.right)).2
    isplitl [Hrl]; · iexact Hrl
    iexact Hrr
  · iexact Ho

/-- The buffers no window stages do not change across the region. -/
theorem rest_eq (c : Dev nD) :
    (Pipeline.unscopedRest (Ix := Unit) (Name := ℕ) (U := UR sig nD τ) (Lvl := ℕ) spec0 c (fun b => V₁ m c (Proc.devRef .tc b)) : sProp 𝕄)
      = Pipeline.unscopedRest spec0 c (V m c) := by
  rw [unscopedRest0_eq, unscopedRest0_eq]
  rw [V₁_ne m c _ (StableHlo.devRef_ne_of_ne (by decide)), V₁_ne m c _ (StableHlo.devRef_ne_of_ne (by decide)),
    V₁_ne m c _ (StableHlo.devRef_ne_of_ne (by decide)), V₁_ne m c _ (StableHlo.devRef_ne_of_ne (by decide)),
    V₁_ne m c _ (StableHlo.devRef_ne_of_ne (by decide))]

/-- The scratch at named contents is the scratch at some contents. -/
theorem scratch_forget (c : Dev nD) (X : Vec F S8x128 .f32) :
    (owns (c : Thread nD τ) scM fullShare X : sProp 𝕄)
      ⊢ iprop(∃ f : Buf (Elt F) ((c : Thread nD τ).loc cc0_scratch0), ((c : Thread nD τ).loc cc0_scratch0) ↦{fullShare} f) := by
  rw [owns_whole]; iintro H; iexists _; iexact H

/-! ## The segments -/

/-- An unscoped TensorCore reference is among the unscoped device buffers. -/
theorem mem_uc (b : Ref sig .tc) (h : b.isScoped = false) : (Proc.devRef .tc b : DevRef τ sig) ∈ Pipeline.ucRefs τ sig := by
  unfold Pipeline.ucRefs StableHlo.tcRefs
  rw [Finset.filter_map]
  exact Finset.mem_map_of_mem _ (Finset.mem_filter.mpr ⟨Finset.mem_univ _, by simpa using h⟩)

theorem hostOps1_fresh : ∀ op ∈ (hostOps1 : List (HloOp τ sig (Elt F))), op.fresh = ∅ := by
  intro _ h; (repeat (cases h with | head => rfl | tail _ h => ?_)); exact nomatch h

/-- THE HOST SEGMENT: the five operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V₁ m) R

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V₀ m c) = unscopedBufs c (V m c) from (Pipeline.unscopedBufs_held c _).symm,
      Pipeline.unscopedBufs_split₀ cfgs 0 winFacts₀0.arr_unscoped c (V m c)]
    iintro ⟨⟨⟨Hab, Hur⟩, HO, Hg⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hur
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = PhiS m c cfg0.N (le_refl _) from rfl,
      PhiS_pos m c _ _ (by decide), scopedRest0_eq]
    iintro ⟨HS, Hg⟩
    isplitl [Hg]; · iexact Hg
    isplitr; · iempintro
    iapply (scratch_forget c _); iexact HS
  hexit c := by
    rw [show StableHlo.held (c : Thread nD τ) (Pipeline.ucRefs τ sig) (V₁ m c) = unscopedBufs c (fun b => V₁ m c (Proc.devRef .tc b)) from (Pipeline.unscopedBufs_held c _).symm,
      Pipeline.unscopedBufs_split₀ cfgs 0 winFacts₀0.arr_unscoped c (fun b => V₁ m c (Proc.devRef .tc b)), rest_eq, arrBufs_eq]
    iintro ⟨Ha, HO, Hg, Hur⟩
    ihave Ha := (arrays_out m c) $$ Ha
    icases Ha with ⟨Ha0, Hv0⟩
    imodintro
    isplitr [HO Hg]
    · isplitr [Hur]
      · isplitl [Ha0]
        · rw [V₁_ne m c _ (StableHlo.devRef_ne_of_ne (by decide))]; iexact Ha0
        · rw [V₁_v0]; iexact Hv0
      · iexact Hur
    · isplitl [HO]
      · unfold Pipeline.Dat.owesAt Pipeline.owesWithin
        icases HO with ⟨%W, -, HO⟩; iexists W; iexact HO
      · iexact Hg

/-- @main as the list of the two. -/
abbrev segs : List (Pipeline.Seg (pcfgs (F := F)) adm (dats m) () defs₀ 𝒱₀ L lv) := [.region (reg0 m), .host (seg1 m)]

/-- The launch element: the pipeline library's, at its staging cells. -/
def u₀ : UR sig nD τ :=
  initOf (Pipeline.cells (Pipeline.pin (pcfgs (F := F)) adm) cellOf_inj) (Pipeline.launchToks (Pipeline.pin (pcfgs (F := F)) adm) cellOf_inj)

/-- The buffers at the end: the host operations run from the buffers the region left. -/
abbrev V₂ (c : Dev nD) : Valuation τ sig (Elt F) := StableHlo.after hostOps1 (V₁ m c)

set_option backward.isDefEq.respectTransparency.types false in
/-- THE RUN: every weakly fair execution terminates, and in every final state the result buffer holds the host
    operations' value of the buffers the region left, and the argument holds what it held at launch. -/
theorem run_main : θ_run defs (onTc (τ := τ) (main (F := F))) ⟨m, fun _ => 0, ρ⟩ (fun r => ∀ c : Dev nD,
      r.2.mem ((c.tc : Thread nD τ).loc main_v4) = V₂ m c (Proc.devRef .tc main_v4)
      ∧ r.2.mem ((c.tc : Thread nD τ).loc main_arg0) = V₂ m c (Proc.devRef .tc main_arg0)) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu; imodintro
      isplitl [Hu]
      · iapply (show (ownU _ : sProp 𝕄) ⊢ BI.own (EP (F := F) (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (V₂ m c) ∗ (∃ r, prngReg c r)))
    (hch := ⟨fun _ => .rfl, fun _ => .rfl, fun c => by
      show iprop(StableHlo.held (c : Thread nD τ) (Pipeline.ucRefs τ sig) (StableHlo.after hostOps1 (V₁ m c)) ∗ R c) ⊢ _
      iintro ⟨Hh, HO, Hg⟩
      isplitr [HO]
      · isplitl [Hh]; · iexact Hh
        iexact Hg
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v4) = V₂ m c (Proc.devRef .tc main_v4)
      ∧ s.mem ((c : Thread nD τ).loc main_arg0) = V₂ m c (Proc.devRef .tc main_arg0))
    (hfin := fun c s' => by
      unfold StableHlo.held
      iintro ⟨⟨Hh, -⟩, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imodintro
      isplitr; · ipureintro; exact ⟨h _ (mem_uc _ (by decide)), h _ (mem_uc _ (by decide))⟩
      iexact HSI)
    (hQ := fun _ h => h)

end Cert.KernelIdeal.Hand

end
-- ==== Proof.TailValue.lean ====
/-
  The five host operations after the kernel: the entries [b, 0, 0] of the 2 × 8 × 128 result are sliced out, laid flat,
  summed from zero and square-rooted. At the ideal instance the result is the square root of the sum of those two
  entries; no operation writes the argument.
-/
import proofs.«424194_j78881369358757_4_alg».proof.Proof.Gen.KernelIdeal.Launch
import proofs.«424194_j78881369358757_4_alg».proof.Proof.LibTableTotal
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.TailValue

open Idealize.ShloMosaic Idealize.ShloMosaic.TcCoe Idealize.ShloMosaic.ValueIdx Cert.KernelIdeal Cert.KernelIdeal.Gen

variable {F : FTy → Type} [FloatOps F]

/-- A reference that is none of the five results is written by no operation of the tail. -/
private theorem tail_not_written (b : Ref sig .tc)
    (hb : b ≠ main_v1 ∧ b ≠ main_v2 ∧ b ≠ main_cst ∧ b ≠ main_v3 ∧ b ≠ main_v4) :
    ∀ op ∈ (hostOps1 (F := F)), Proc.devRef .tc b ∉ op.writes := by
  obtain ⟨h1, h2, hc, h3, h4⟩ := hb
  intro op hop
  simp only [List.mem_cons, List.mem_nil_iff, or_false] at hop
  rcases hop with rfl | rfl | rfl | rfl | rfl
  · rw [StableHlo.unary_writes, Finset.mem_singleton]; exact StableHlo.devRef_ne_of_ne h1
  · rw [StableHlo.reshape_writes, Finset.mem_singleton]; exact StableHlo.devRef_ne_of_ne h2
  · rw [StableHlo.nullary_writes, Finset.mem_singleton]; exact StableHlo.devRef_ne_of_ne hc
  · rw [StableHlo.binary_writes, Finset.mem_singleton]; exact StableHlo.devRef_ne_of_ne h3
  · rw [StableHlo.unary_writes, Finset.mem_singleton]; exact StableHlo.devRef_ne_of_ne h4

/-- A rank-1 index set is its one coordinate's range … -/
private def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-- The slice laid flat, read at `k`, is the array's entry `[k, 0, 0]`: the flat position `k` is the position of
    `[k, 0, 0]` in the 2 × 1 × 1 slice, and the slice's offsets are zero. -/
private theorem flat_slice_apply {α : Type} (X : S2x8x128.Idx → α) (k : Fin 2) :
    shapeCast S2 (extractStridedSlice S2x1x1 ![0, 0, 0] X slices_S2x8x128_S2x1x1_0_0_0) shapeCasts_S2x1x1_S2 (ix1 k)
      = X (ix3 k (0 : Fin 8) (0 : Fin 128)) := by
  rw [shapeCast_apply _ shapeCasts_S2x1x1_S2 (ix1 k) (ix3 k (0 : Fin 1) (0 : Fin 1))
    (by rw [Shape.rowMajor_val_three, Shape.rowMajor_val_one]; show (k.val * 1 + 0) * 1 + 0 = k.val; omega)]
  exact extractStridedSlice_apply _ X _ _ (ix3 k (0 : Fin 8) (0 : Fin 128)) fun a =>
    match a with
    | ⟨0, _⟩ => (Nat.zero_add _).symm
    | ⟨1, _⟩ => rfl
    | ⟨2, _⟩ => rfl

/-- No operation of the tail writes the argument: it holds after them what it held before. -/
theorem tail_arg0 (W : Valuation τ sig (Elt F)) :
    StableHlo.after (hostOps1 (F := F)) W (Proc.devRef .tc main_arg0) = W (Proc.devRef .tc main_arg0) :=
  StableHlo.after_of_forall_not_mem (b := Proc.devRef .tc main_arg0) hostOps1 W (tail_not_written main_arg0 (by decide))

/-- Nor the kernel's result array. -/
theorem tail_v0 (W : Valuation τ sig (Elt F)) :
    StableHlo.after (hostOps1 (F := F)) W (Proc.devRef .tc main_v0) = W (Proc.devRef .tc main_v0) :=
  StableHlo.after_of_forall_not_mem (b := Proc.devRef .tc main_v0) hostOps1 W (tail_not_written main_v0 (by decide))

/-- The tail's result at the ideal instance: the square root of the sum of the result array's entries [0,0,0] and [1,0,0]. -/
theorem tail_v4 (W : Valuation τ sig (Elt Ideal)) (X : S2x8x128.Idx → EReal) (hX : W (Proc.devRef .tc main_v0) = X) :
    StableHlo.after (hostOps1 (F := Ideal)) W (Proc.devRef .tc main_v4)
      = Host.sqrt (F := Ideal) (φ := .f32) (fun _ : S_.Idx => X (ix3 (0 : Fin 2) (0 : Fin 8) (0 : Fin 128)) + X (ix3 (1 : Fin 2) (0 : Fin 8) (0 : Fin 128))) := by
  show StableHlo.after hostOps1 _ (Proc.devRef .tc main_v4) = _
  after_results
  rw [hX]
  refine congrArg (Host.sqrt (F := Ideal) (φ := .f32)) (funext fun j => ?_)
  -- the host sum from the zero word into the scalar shape is the total over the two flat entries
  refine (Cert.TableTotal.host_total _ reducesTo_S2_S_d0 (fun b => b.elim0) h_S_ j).trans ?_
  rw [sum_idx1, Fin.sum_univ_two]
  exact congrArg₂ (· + ·) (flat_slice_apply X 0) (flat_slice_apply X 1)

end Cert.KernelIdeal.TailValue

end
-- ==== Proof.KIFinal.lean ====
/-
  The argument at the end of the run: no host operation after the region writes it, and the region hands it back as
  launched, so the final memory holds the launch contents there.
-/
import proofs.«424194_j78881369358757_4_alg».proof.Proof.KIRun
import proofs.«424194_j78881369358757_4_alg».proof.Proof.TailValue

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (m : (ℓ : Loc nD τ sig) → Buf (Elt F) ℓ)

/-- The argument buffer at the end is the argument buffer at launch. -/
theorem final_arg0 (c : Dev nD) : V₂ m c (Proc.devRef .tc main_arg0) = m ((c : Thread nD τ).loc main_arg0) := by
  show StableHlo.after hostOps1 (V₁ m c) (Proc.devRef .tc main_arg0) = _
  rw [Cert.KernelIdeal.TailValue.tail_arg0, V₁_ne m c _ (StableHlo.devRef_ne_of_ne (by decide))]

end Cert.KernelIdeal.Hand

end
-- ==== Proof.Spec.lean ====
/-
  The residual of the discrete wave equation on a periodic 512 × 512 grid, and the running sum a row of
  thirty-two batch entries accumulates, as plain functions over the extended reals.

  The argument holds, for each of 64 batch entries, four planes; plane 1 is the field one step back, plane 2 the
  field now, plane 3 the predicted field. With p and 2 the two float literals the programs share, the residual at
  row h and column w of batch entry n is
      p · (u(h, w−1) + u(h, w+1) − 2·u(h, w)) + p · (u(h−1, w) + u(h+1, w) − 2·u(h, w)) + 2·u(h, w) − u₋(h, w) − u₊(h, w)
  with the neighbours taken cyclically. Both programs return the square root of the sum of its squares over every batch
  entry, row and column. Coordinates are natural numbers here (an entry outside the array reads as zero), so that a
  statement about one entry never depends on how an index type spells its bound.
-/
import Idealize.ShloMosaic.PureOps.Ideal
import Idealize.ShloMosaic.Lib.ValueIdx

noncomputable section

namespace Cert.PinnSpec

open Idealize.ShloMosaic Idealize.ShloMosaic.ValueIdx

/-- The argument's shape: 64 batch entries of 4 planes of 512 × 512. -/
abbrev SArg : Shape := ⟨4, ![64, 4, 512, 512]⟩
/-- One plane, as the kernel's blocks have it. -/
abbrev SPlane : Shape := ⟨4, ![1, 1, 512, 512]⟩
/-- One plane per batch entry, as the reference's intermediate arrays have it. -/
abbrev SAll : Shape := ⟨4, ![64, 1, 512, 512]⟩

/-- The argument read at natural-number coordinates (zero outside the array). -/
def rd (a : SArg.Idx → EReal) (n ch h w : ℕ) : EReal :=
  if hb : n < 64 ∧ ch < 4 ∧ h < 512 ∧ w < 512 then
    a (ix4 (⟨n, hb.1⟩ : Fin 64) (⟨ch, hb.2.1⟩ : Fin 4) (⟨h, hb.2.2.1⟩ : Fin 512) (⟨w, hb.2.2.2⟩ : Fin 512))
  else 0

theorem rd_eq (a : SArg.Idx → EReal) (n ch h w : ℕ) (hn : n < 64) (hc : ch < 4) (hh : h < 512) (hw : w < 512) :
    rd a n ch h w = a (ix4 (⟨n, hn⟩ : Fin 64) (⟨ch, hc⟩ : Fin 4) (⟨h, hh⟩ : Fin 512) (⟨w, hw⟩ : Fin 512)) := by
  unfold rd; rw [dif_pos ⟨hn, hc, hh, hw⟩]

/-- The argument at an index is the argument read at the index's coordinates. -/
theorem rd_idx (a : SArg.Idx → EReal) (i : SArg.Idx) : rd a (i 0).val (i 1).val (i 2).val (i 3).val = a i := by
  rw [rd_eq a _ _ _ _ (i 0).isLt (i 1).isLt (i 2).isLt (i 3).isLt]
  exact congrArg a (eq_ix4 i).symm

/-- The coefficient p = Δt²c²/Δh², as the float literal both programs carry. -/
def cP : EReal := Ideal.ofBits .f32 0x3F463F14#32
/-- The literal 2. -/
def c2 : EReal := Ideal.ofBits .f32 0x40000000#32

/-- The residual at batch entry `n`, row `h`, column `w`: the two cyclic second differences of the field now, scaled,
    plus twice the field now, less the field one step back and the predicted field. -/
def res (a : SArg.Idx → EReal) (n h w : ℕ) : EReal :=
  cP * ((rd a n 2 h ((w + 511) % 512) + rd a n 2 h ((w + 1) % 512)) - c2 * rd a n 2 h w)
    + cP * ((rd a n 2 ((h + 511) % 512) w + rd a n 2 ((h + 1) % 512) w) - c2 * rd a n 2 h w)
    + c2 * rd a n 2 h w - rd a n 1 h w - rd a n 3 h w

/-- Its square. -/
def rsq (a : SArg.Idx → EReal) (n h w : ℕ) : EReal := res a n h w * res a n h w

/-- The sum of the squared residuals over one batch entry's plane. -/
def planeSum (a : SArg.Idx → EReal) (n : ℕ) : EReal := ∑ y : SPlane.Idx, rsq a n (y 2).val (y 3).val

/-- The sum over everything. -/
def total (a : SArg.Idx → EReal) : EReal := ∑ i : SAll.Idx, rsq a (i 0).val (i 2).val (i 3).val

/-- What a running sum over consecutive terms holds after term `t`, when it restarts from zero at every multiple of 32:
    the terms of `t`'s group of thirty-two up to `t`, added in order. -/
def runSum (s : ℕ → EReal) : ℕ → EReal
  | 0 => 0 + s 0
  | t + 1 => if (t + 1) % 32 = 0 then 0 + s (t + 1) else runSum s t + s (t + 1)

end Cert.PinnSpec

end
-- ==== Proof.PayloadValue.lean ====
/-
  What the kernel's body computes, read at one entry at the ideal instance: the plane reduction is the plane sum of
  the squared residuals of the blocks' batch entry; the accumulator update adds that scalar to every entry; the reset
  writes zeros; the final store re-lays the accumulator under a leading unit axis.
-/
import proofs.«424194_j78881369358757_4_alg».proof.Proof.Gen.KernelIdeal.Skeleton
import proofs.«424194_j78881369358757_4_alg».proof.Proof.Spec
import proofs.«424194_j78881369358757_4_alg».proof.Proof.LibTableTotal
import Idealize.ShloMosaic.Lib.ValueIdx
import Idealize.ShloMosaic.Lib.Pipeline.Value
import Idealize.ShloMosaic.PureOps.Ideal.Laws

noncomputable section

namespace Cert.KernelIdeal.PayloadValue

open Idealize.ShloMosaic Idealize.ShloMosaic.ValueIdx Cert.KernelIdeal Cert.PinnSpec

/-- A block that is plane `c` of batch entry `n`, rotated along its columns by `m` with `m % 512 + k = 512`, reads at row
    `h`, column `w` the plane at row `h`, column `(w + k) % 512`: the rotation moves column `w'` to `(w' + m) % 512`. -/
private theorem rot_col (a : SArg.Idx → EReal) (n c : ℕ) (x : Vec Ideal S1x1x512x512 .f32)
    (hx : ∀ y : S1x1x512x512.Idx, x y = rd a n c (y 2).val (y 3).val) (m : BitVec 32) (k : ℕ)
    (hk : m.toNat % 512 + k = 512) (hr : S1x1x512x512.Rotates 3 none) (y : S1x1x512x512.Idx) :
    dynamicRotate 3 m none x hr y = rd a n c (y 2).val (((y 3).val + k) % 512) := by
  refine (hx _).trans ?_
  have e : ((y 3).val + 512 - m.toNat % 512) % 512 = ((y 3).val + k) % 512 := by omega
  rw [← e]
  rfl

/-- The same along the rows: rotated by `m` with `m % 512 + k = 512`, the block reads at row `h` the plane's row
    `(h + k) % 512`. -/
private theorem rot_row (a : SArg.Idx → EReal) (n c : ℕ) (x : Vec Ideal S1x1x512x512 .f32)
    (hx : ∀ y : S1x1x512x512.Idx, x y = rd a n c (y 2).val (y 3).val) (m : BitVec 32) (k : ℕ)
    (hk : m.toNat % 512 + k = 512) (hr : S1x1x512x512.Rotates 2 none) (y : S1x1x512x512.Idx) :
    dynamicRotate 2 m none x hr y = rd a n c (((y 2).val + k) % 512) (y 3).val := by
  refine (hx _).trans ?_
  have e : ((y 2).val + 512 - m.toNat % 512) % 512 = ((y 2).val + k) % 512 := by omega
  rw [← e]
  rfl

/-- The plane reduction: when the three blocks are planes 1, 2, 3 of batch entry `n`, its one entry is the plane sum. -/
theorem pay4_eq (a : SArg.Idx → EReal) (n : ℕ) (x0 x1 x2 : Vec Ideal S1x1x512x512 .f32)
    (h0 : ∀ y : S1x1x512x512.Idx, x0 y = rd a n 1 (y 2).val (y 3).val)
    (h1 : ∀ y : S1x1x512x512.Idx, x1 y = rd a n 2 (y 2).val (y 3).val)
    (h2 : ∀ y : S1x1x512x512.Idx, x2 y = rd a n 3 (y 2).val (y 3).val) (z : S1x1x1.Idx) :
    Gen.k0_pay4 (F := Ideal) x0 x1 x2 z = planeSum a n := by
  unfold Gen.k0_pay4
  refine (Cert.TableTotal.two_stage_total _ _ _ _ _ (by decide) _ _ z).trans ?_
  unfold planeSum
  refine Finset.sum_congr rfl fun y _ => ?_
  unfold rsq res cP c2
  simp only [mulf_apply, addf_apply, subf_apply, broadcast_apply, Ideal.ofBits_def]
  rw [rot_col a n 2 x1 h1 1#32 511 (by decide), rot_col a n 2 x1 h1 511#32 1 (by decide),
    rot_row a n 2 x1 h1 1#32 511 (by decide), rot_row a n 2 x1 h1 511#32 1 (by decide), h0 y, h1 y, h2 y]

/-- The reset writes zero everywhere. -/
theorem pay3_eq (y : S8x128.Idx) : Gen.k0_pay3 (F := Ideal) y = (0 : EReal) := by
  show Ideal.ofBits .f32 0x00000000#32 = 0
  exact Ideal.ofBits_zero_f32

/-- The update adds the reduced scalar to every entry of the accumulator. -/
theorem pay1_eq (v31 : FVec Ideal S1x1x1 .f32) (v34 : Vec Ideal S8x128 .f32) (y : S8x128.Idx) (z : S1x1x1.Idx) :
    Gen.k0_pay1 (F := Ideal) v31 v34 y = v34 y + v31 z := by
  unfold Gen.k0_pay1
  rw [shapeCast_self]
  show v34 y + v31 _ = v34 y + v31 z
  congr 2
  exact Cert.TableTotal.idx_eq_of_unit (by decide) _ _

/-- The final store is the accumulator under a leading unit axis. -/
theorem pay2_eq (v43 : Vec Ideal S8x128 .f32) (y : S1x8x128.Idx) (y' : S8x128.Idx)
    (hr : (y' 0).val = (y 1).val) (hl : (y' 1).val = (y 2).val) :
    Gen.k0_pay2 (F := Ideal) v43 y = v43 y' := by
  unfold Gen.k0_pay2
  refine shapeCast_apply v43 _ y y' ?_
  rw [Shape.rowMajor_val_two, Shape.rowMajor_val_three]
  have h0 : (y 0).val < 1 := (y 0).isLt
  show (y' 0).val * 128 + (y' 1).val = ((y 0).val * 8 + (y 1).val) * 128 + (y 2).val
  omega

end Cert.KernelIdeal.PayloadValue

end
-- ==== Proof.KIAcc.lean ====
/-
  The accumulator, read at an entry at the ideal instance.

  Point t stages planes 1, 2, 3 of batch entry t of the argument, so the scalar it adds is that entry's plane sum, and
  every entry of the accumulator after point t is the running sum of the plane sums: restarted at every multiple of 32,
  added to otherwise.
-/
import proofs.«424194_j78881369358757_4_alg».proof.Proof.KIData
import proofs.«424194_j78881369358757_4_alg».proof.Proof.PayloadValue
import proofs.«424194_j78881369358757_4_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

open Cert.PinnSpec Idealize.ShloMosaic.ValueIdx

variable (m : (ℓ : Loc nD τ sig) → Buf (Elt Ideal) ℓ)

/-- The argument array on core `c`, as launched. -/
abbrev argOf (c : Dev nD) : SArg.Idx → EReal := m ((c : Thread nD τ).loc main_arg0)

/-- Window 0's block index at point `t`: batch entry `t`, plane 1, the whole plane. -/
private theorem index0 : ∀ t : Fin cfg0.N, win0_0.index t (0 : Fin 4) = t.val ∧ win0_0.index t (1 : Fin 4) = 1
    ∧ win0_0.index t (2 : Fin 4) = 0 ∧ win0_0.index t (3 : Fin 4) = 0 :=
  (by decide +kernel : ∀ t : Fin grid0.N, win0_0.index t (0 : Fin 4) = t.val ∧ win0_0.index t (1 : Fin 4) = 1
    ∧ win0_0.index t (2 : Fin 4) = 0 ∧ win0_0.index t (3 : Fin 4) = 0)

/-- Window 1's block index at point `t`: batch entry `t`, plane 2, the whole plane. -/
private theorem index1 : ∀ t : Fin cfg0.N, win0_1.index t (0 : Fin 4) = t.val ∧ win0_1.index t (1 : Fin 4) = 2
    ∧ win0_1.index t (2 : Fin 4) = 0 ∧ win0_1.index t (3 : Fin 4) = 0 :=
  (by decide +kernel : ∀ t : Fin grid0.N, win0_1.index t (0 : Fin 4) = t.val ∧ win0_1.index t (1 : Fin 4) = 2
    ∧ win0_1.index t (2 : Fin 4) = 0 ∧ win0_1.index t (3 : Fin 4) = 0)

/-- Window 2's block index at point `t`: batch entry `t`, plane 3, the whole plane. -/
private theorem index2 : ∀ t : Fin cfg0.N, win0_2.index t (0 : Fin 4) = t.val ∧ win0_2.index t (1 : Fin 4) = 3
    ∧ win0_2.index t (2 : Fin 4) = 0 ∧ win0_2.index t (3 : Fin 4) = 0 :=
  (by decide +kernel : ∀ t : Fin grid0.N, win0_2.index t (0 : Fin 4) = t.val ∧ win0_2.index t (1 : Fin 4) = 3
    ∧ win0_2.index t (2 : Fin 4) = 0 ∧ win0_2.index t (3 : Fin 4) = 0)

/-- Window `k`'s block at point `t` is plane `k + 1` of batch entry `t`: the block's coordinate on an axis is its index
    there times the block's extent plus the coordinate inside the block. -/
theorem plane0_read (c : Dev nD) (t : Fin cfg0.N) (y : S1x1x512x512.Idx) :
    pl0 (F := Ideal) m c t y = rd (argOf m c) t.val 1 (y 2).val (y 3).val := by
  obtain ⟨i0, i1, i2, i3⟩ := index0 t
  have hN : t.val < 64 := lt_of_lt_of_eq t.isLt (show cfg0.N = 64 from N_0)
  rw [rd_eq (argOf m c) _ _ _ _ hN (by decide) (y 2).isLt (y 3).isLt]
  unfold pl0 iblk
  rw [View.read_apply]
  show V m c main_arg0 (((cfg0.win 0).blk t).view.emb y) = argOf m c _
  have y0 : (y 0).val < 1 := (y 0).isLt
  have y1 : (y 1).val < 1 := (y 1).isLt
  refine congrArg (argOf m c) (funext fun a => Fin.ext ?_)
  match a with
  | ⟨0, _⟩ => show win0_0.index t 0 * 1 + 1 * (y 0).val = t.val; rw [i0]; omega
  | ⟨1, _⟩ => show win0_0.index t 1 * 1 + 1 * (y 1).val = 1; rw [i1]; omega
  | ⟨2, _⟩ => show win0_0.index t 2 * 512 + 1 * (y 2).val = (y 2).val; rw [i2]; omega
  | ⟨3, _⟩ => show win0_0.index t 3 * 512 + 1 * (y 3).val = (y 3).val; rw [i3]; omega
theorem plane1_read (c : Dev nD) (t : Fin cfg0.N) (y : S1x1x512x512.Idx) :
    pl1 (F := Ideal) m c t y = rd (argOf m c) t.val 2 (y 2).val (y 3).val := by
  obtain ⟨i0, i1, i2, i3⟩ := index1 t
  have hN : t.val < 64 := lt_of_lt_of_eq t.isLt (show cfg0.N = 64 from N_0)
  rw [rd_eq (argOf m c) _ _ _ _ hN (by decide) (y 2).isLt (y 3).isLt]
  unfold pl1 iblk
  rw [View.read_apply]
  show V m c main_arg0 (((cfg0.win 1).blk t).view.emb y) = argOf m c _
  have y0 : (y 0).val < 1 := (y 0).isLt
  have y1 : (y 1).val < 1 := (y 1).isLt
  refine congrArg (argOf m c) (funext fun a => Fin.ext ?_)
  match a with
  | ⟨0, _⟩ => show win0_1.index t 0 * 1 + 1 * (y 0).val = t.val; rw [i0]; omega
  | ⟨1, _⟩ => show win0_1.index t 1 * 1 + 1 * (y 1).val = 2; rw [i1]; omega
  | ⟨2, _⟩ => show win0_1.index t 2 * 512 + 1 * (y 2).val = (y 2).val; rw [i2]; omega
  | ⟨3, _⟩ => show win0_1.index t 3 * 512 + 1 * (y 3).val = (y 3).val; rw [i3]; omega
theorem plane2_read (c : Dev nD) (t : Fin cfg0.N) (y : S1x1x512x512.Idx) :
    pl2 (F := Ideal) m c t y = rd (argOf m c) t.val 3 (y 2).val (y 3).val := by
  obtain ⟨i0, i1, i2, i3⟩ := index2 t
  have hN : t.val < 64 := lt_of_lt_of_eq t.isLt (show cfg0.N = 64 from N_0)
  rw [rd_eq (argOf m c) _ _ _ _ hN (by decide) (y 2).isLt (y 3).isLt]
  unfold pl2 iblk
  rw [View.read_apply]
  show V m c main_arg0 (((cfg0.win 2).blk t).view.emb y) = argOf m c _
  have y0 : (y 0).val < 1 := (y 0).isLt
  have y1 : (y 1).val < 1 := (y 1).isLt
  refine congrArg (argOf m c) (funext fun a => Fin.ext ?_)
  match a with
  | ⟨0, _⟩ => show win0_2.index t 0 * 1 + 1 * (y 0).val = t.val; rw [i0]; omega
  | ⟨1, _⟩ => show win0_2.index t 1 * 1 + 1 * (y 1).val = 3; rw [i1]; omega
  | ⟨2, _⟩ => show win0_2.index t 2 * 512 + 1 * (y 2).val = (y 2).val; rw [i2]; omega
  | ⟨3, _⟩ => show win0_2.index t 3 * 512 + 1 * (y 3).val = (y 3).val; rw [i3]; omega

/-- The scalar point `t` adds to the accumulator is the plane sum of batch entry `t`. -/
private theorem step_eq (c : Dev nD) (t : Fin cfg0.N) (z : S1x1x1.Idx) :
    k0_pay4 (pl0 (F := Ideal) m c t) (pl1 m c t) (pl2 m c t) z = planeSum (argOf m c) t.val :=
  PayloadValue.pay4_eq (argOf m c) t.val _ _ _ (plane0_read m c t) (plane1_read m c t) (plane2_read m c t) z

/-- A point that starts a row leaves zero plus its plane sum at every entry. -/
private theorem first_eq (c : Dev nD) (t : Fin cfg0.N) (y : S8x128.Idx) :
    accFirst (pl0 (F := Ideal) m c t) (pl1 m c t) (pl2 m c t) y = 0 + planeSum (argOf m c) t.val := by
  show k0_pay1 (k0_pay4 _ _ _) k0_pay3 y = _
  rw [PayloadValue.pay1_eq _ _ y (ix3 (0 : Fin 1) (0 : Fin 1) (0 : Fin 1)), PayloadValue.pay3_eq, step_eq]

/-- Any other point adds its plane sum to what the entry held. -/
private theorem next_eq (c : Dev nD) (t : Fin cfg0.N) (xs : Vec Ideal S8x128 .f32) (y : S8x128.Idx) :
    accNext (pl0 (F := Ideal) m c t) (pl1 m c t) (pl2 m c t) xs y = xs y + planeSum (argOf m c) t.val := by
  show k0_pay1 (k0_pay4 _ _ _) xs y = _
  rw [PayloadValue.pay1_eq _ _ y (ix3 (0 : Fin 1) (0 : Fin 1) (0 : Fin 1)), step_eq]

/-- The accumulator after position `n`, entry by entry, by induction on `n`: both sides restart at a multiple of 32 and
    add the point's plane sum otherwise. -/
private theorem acc_eq_pos (c : Dev nD) : ∀ (n : ℕ) (hn : n < cfg0.N) (y : S8x128.Idx),
    accAt (F := Ideal) m c n hn y = runSum (planeSum (argOf m c)) n
  | 0, hn, y => by
    have e : accAt (F := Ideal) m c 0 hn = accFirst (pl0 m c ⟨0, hn⟩) (pl1 m c ⟨0, hn⟩) (pl2 m c ⟨0, hn⟩) :=
      accAt_first m c ⟨0, hn⟩ rfl
    rw [e, first_eq m c ⟨0, hn⟩ y, runSum]
  | n + 1, hn, y => by
    by_cases h : (n + 1) % 32 = 0
    · have e : accAt (F := Ideal) m c (n + 1) hn
          = accFirst (pl0 m c ⟨n + 1, hn⟩) (pl1 m c ⟨n + 1, hn⟩) (pl2 m c ⟨n + 1, hn⟩) := accAt_first m c ⟨n + 1, hn⟩ h
      rw [e, first_eq m c ⟨n + 1, hn⟩ y, runSum, if_pos h]
    · have e : accAt (F := Ideal) m c (n + 1) hn
          = accNext (pl0 m c ⟨n + 1, hn⟩) (pl1 m c ⟨n + 1, hn⟩) (pl2 m c ⟨n + 1, hn⟩)
              (accAt m c n (Nat.lt_of_succ_lt hn)) := accAt_next m c ⟨n + 1, hn⟩ h
      rw [e, next_eq m c ⟨n + 1, hn⟩ _ y, runSum, if_neg h, acc_eq_pos c n (Nat.lt_of_succ_lt hn) y]

/-- Every entry of the accumulator after point `t` is the running sum of the plane sums at `t`. -/
theorem acc_eq (c : Dev nD) (t : Fin cfg0.N) (y : S8x128.Idx) :
    accAt (F := Ideal) m c t.val t.isLt y = runSum (planeSum (argOf m c)) t.val :=
  acc_eq_pos m c t.val t.isLt y

end Cert.KernelIdeal.Hand

end
-- ==== Proof.KIOut.lean ====
/-
  The output array after the region, read at the entries the host operations use.

  The output window is written back twice, at points 31 and 63, into blocks 0 and 1 of the 2 × 8 × 128 array; the blocks
  are disjoint, so block b of the final array is what point 32·b + 31 left in the staging buffer: the accumulator under
  a leading unit axis. Entry [b, 0, 0] is therefore entry [0, 0] of the accumulator after that point.
-/
import proofs.«424194_j78881369358757_4_alg».proof.Proof.KIData
import proofs.«424194_j78881369358757_4_alg».proof.Proof.PayloadValue
import proofs.«424194_j78881369358757_4_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The output window's block index at each point, decided over the grid: on the leading axis the row of thirty-two
    the point is in, zero on the other two. -/
private theorem idx_out : ∀ t : Fin cfg0.N, win0_3.index t (0 : Fin 3) = t.val / 32
    ∧ win0_3.index t (1 : Fin 3) = 0 ∧ win0_3.index t (2 : Fin 3) = 0 :=
  (by decide +kernel : ∀ t : Fin grid0.N, win0_3.index t (0 : Fin 3) = t.val / 32
    ∧ win0_3.index t (1 : Fin 3) = 0 ∧ win0_3.index t (2 : Fin 3) = 0)

/-- An index of the output array lies under point `t`'s block iff each coordinate is in the block's range on its axis. -/
private theorem mem_blk (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v0).slice (win0_3.rect t)).set ↔ _
  rw [View.set_slice_whole, Rect.mem_set_unit]
  exact Iff.rfl

/-- Two different points that write the window back lie in different rows of thirty-two, so their blocks differ on the
    leading axis and share no index. -/
private theorem blk_disjoint : ∀ t t' : Fin cfg0.N, (cfg0.win 3).flush t = true → (cfg0.win 3).flush t' = true → t ≠ t' →
    Disjoint ((cfg0.win 3).blk t).view.set ((cfg0.win 3).blk t').view.set := by
  intro t t' hf hf' hne
  rw [Finset.disjoint_left]
  intro i hi hi'
  rw [mem_blk] at hi hi'
  have b0 : win0_3.index t (0 : Fin 3) * 1 ≤ (i 0).val ∧ (i 0).val < win0_3.index t (0 : Fin 3) * 1 + 1 := hi 0
  have b0' : win0_3.index t' (0 : Fin 3) * 1 ≤ (i 0).val ∧ (i 0).val < win0_3.index t' (0 : Fin 3) * 1 + 1 := hi' 0
  have r := (flush0_3 t).mp hf
  have r' := (flush0_3 t').mp hf'
  have hN : t.val < 64 := lt_of_lt_of_eq t.isLt (show cfg0.N = 64 from N_0)
  have hN' : t'.val < 64 := lt_of_lt_of_eq t'.isLt (show cfg0.N = 64 from N_0)
  have hv : t.val ≠ t'.val := fun e => hne (Fin.ext e)
  obtain ⟨e, -, -⟩ := idx_out t
  obtain ⟨e', -, -⟩ := idx_out t'
  omega

/-- Under a point that writes the window back, the entry at the head of its block: entry [t / 32, 0, 0] of the output array
    after the region is entry [0, 0] of the accumulator after point `t`. -/
private theorem out_at (c : Dev nD) (t : Fin cfg0.N) (ht : t.val % 32 = 31) (q : Fin 2) (hq : q.val = t.val / 32) :
    ((dats (F := Ideal) m 0 c).arrAt 3 cfg0.N : S2x8x128.Idx → EReal) (ix3 q (0 : Fin 8) (0 : Fin 128))
      = accAt (F := Ideal) m c t.val t.isLt (ix2 (0 : Fin 8) (0 : Fin 128)) := by
  have hf : (cfg0.win 3).flush t = true := (flush0_3 t).mpr ht
  have h := (dats (F := Ideal) m 0 c).arrAt_emb_eq_flushed 3 blk_disjoint t hf (ix3 (0 : Fin 1) (0 : Fin 8) (0 : Fin 128))
  have hidx : ((cfg0.win 3).blk t).view.emb (ix3 (0 : Fin 1) (0 : Fin 8) (0 : Fin 128)) = ix3 q (0 : Fin 8) (0 : Fin 128) := by
    obtain ⟨e0, e1, e2⟩ := idx_out t
    funext a; apply Fin.ext
    match a with
    | ⟨0, _⟩ => show win0_3.index t (0 : Fin 3) * 1 + 1 * 0 = q.val; omega
    | ⟨1, _⟩ => show win0_3.index t (1 : Fin 3) * 8 + 1 * 0 = 0; omega
    | ⟨2, _⟩ => show win0_3.index t (2 : Fin 3) * 128 + 1 * 0 = 0; omega
  rw [hidx] at h
  refine h.trans ?_
  rw [cast_eq]
  show (dats (F := Ideal) m 0 c).after 3 t _ = _
  rw [after_3]
  exact PayloadValue.pay2_eq _ _ _ rfl rfl

/-- Entry [b, 0, 0] of the output array after the region is entry [0, 0] of the accumulator after point 32·b + 31. -/
theorem out_entry (c : Dev nD) (b : Fin 2) :
    ((dats (F := Ideal) m 0 c).arrAt 3 cfg0.N : S2x8x128.Idx → EReal) (ix3 b (0 : Fin 8) (0 : Fin 128))
      = accAt (F := Ideal) m c (32 * b.val + 31) (by have := b.isLt; show 32 * b.val + 31 < grid0.N; rw [N_0]; omega) (ix2 (0 : Fin 8) (0 : Fin 128)) := by
  have hb : b.val < 2 := b.isLt
  exact out_at m c ⟨32 * b.val + 31, by show 32 * b.val + 31 < grid0.N; rw [N_0]; omega⟩
    (by show (32 * b.val + 31) % 32 = 31; omega) b (by show b.val = (32 * b.val + 31) / 32; omega)

end Cert.KernelIdeal.Hand

end
-- ==== Proof.SumAlgebra.lean ====
/-
  Regrouping the sum of the squared residuals: a running sum restarted every thirty-two terms ends each group at
  that group's sum; two groups of thirty-two make the sixty-four batch entries; and the sum over every index of the
  64 × 1 × 512 × 512 array is the sum over the batch entries of the plane sums. Only commutativity and associativity
  of addition on the extended reals are used.
-/
import proofs.«424194_j78881369358757_4_alg».proof.Proof.Spec
import proofs.«424194_j78881369358757_4_alg».proof.Proof.LibTableTotal

noncomputable section

namespace Cert.PinnSpec

open Idealize.ShloMosaic Idealize.ShloMosaic.ValueIdx

/-- At a multiple of 32 the running sum restarts: it holds zero plus that term. -/
private theorem runSum_restart (s : ℕ → EReal) (t : ℕ) (h : t % 32 = 0) : runSum s t = 0 + s t := by
  cases t with
  | zero => rfl
  | succ t => rw [runSum, if_pos h]

/-- Away from the multiples of 32 the running sum adds the next term to its previous value. -/
private theorem runSum_step (s : ℕ → EReal) (t : ℕ) (h : (t + 1) % 32 ≠ 0) :
    runSum s (t + 1) = runSum s t + s (t + 1) := by
  rw [runSum, if_neg h]

/-- Inside group `b` the running sum after the term of offset `k` is the sum of the group's terms of offsets `0 … k`. -/
private theorem runSum_group (s : ℕ → EReal) (b k : ℕ) (hk : k < 32) :
    runSum s (32 * b + k) = ∑ j ∈ Finset.range (k + 1), s (32 * b + j) := by
  induction k with
  | zero => rw [runSum_restart s _ (by omega), Finset.sum_range_one, zero_add]
  | succ k ih =>
    rw [← Nat.add_assoc, runSum_step s _ (by omega), ih (by omega),
      Finset.sum_range_succ (fun j => s (32 * b + j)) (k + 1), Nat.add_assoc]

/-- A running sum restarted at every multiple of 32 holds, at the last term of group `b`, the sum of that group. -/
theorem runSum_last (s : ℕ → EReal) (b : ℕ) : runSum s (32 * b + 31) = ∑ j : Fin 32, s (32 * b + j.val) :=
  (runSum_group s b 31 (by omega)).trans (Finset.sum_range (fun j => s (32 * b + j)))

/-- A rank-4 index set is the product of its four coordinate ranges … -/
private def idxEquiv4 {n0 n1 n2 n3 : ℕ} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {M : Type*} [AddCommMonoid M] {n0 n1 n2 n3 : ℕ}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The total over the whole array is the sum over the batch entries of the plane sums. -/
theorem total_eq_planes (a : SArg.Idx → EReal) : total a = ∑ n : Fin 64, planeSum a n.val := by
  unfold total planeSum
  rw [sum_idx4 (fun i : SAll.Idx => rsq a (i 0).val (i 2).val (i 3).val)]
  refine Finset.sum_congr rfl fun n _ => ?_
  rw [sum_idx4 (fun y : SPlane.Idx => rsq a n.val (y 2).val (y 3).val)]
  -- the unit axes contribute one term each
  simp only [Finset.univ_unique, Finset.sum_singleton]

/-- The two groups' final running sums add up to the total. -/
theorem total_eq_runs (a : SArg.Idx → EReal) : runSum (planeSum a) 31 + runSum (planeSum a) 63 = total a := by
  have h0 : runSum (planeSum a) 31 = ∑ j : Fin 32, planeSum a (32 * 0 + j.val) := runSum_last (planeSum a) 0
  have h1 : runSum (planeSum a) 63 = ∑ j : Fin 32, planeSum a (32 * 1 + j.val) := runSum_last (planeSum a) 1
  have hsplit : ∑ n : Fin 64, planeSum a n.val
      = ∑ i : Fin 32, planeSum a (Fin.castAdd 32 i).val + ∑ i : Fin 32, planeSum a (Fin.natAdd 32 i).val :=
    Fin.sum_univ_add (a := 32) (b := 32) (fun n => planeSum a n.val)
  rw [total_eq_planes, hsplit, h0, h1]
  simp only [Fin.coe_castAdd, Fin.coe_natAdd, Nat.mul_zero, Nat.zero_add, Nat.mul_one]

end Cert.PinnSpec

end
-- ==== Proof.KIValue.lean ====
/-
  The kernel program's result at the ideal instance.

  The host operations after the region return the square root of the sum of the output array's entries [0, 0, 0] and
  [1, 0, 0]. Those are the accumulator's entries after points 31 and 63: the running sums of the plane sums over the two
  rows of thirty-two batch entries. Together they are the sum of the squared residual over every batch entry, row and
  column.
-/
import proofs.«424194_j78881369358757_4_alg».proof.Proof.KIFinal
import proofs.«424194_j78881369358757_4_alg».proof.Proof.KIAcc
import proofs.«424194_j78881369358757_4_alg».proof.Proof.KIOut
import proofs.«424194_j78881369358757_4_alg».proof.Proof.SumAlgebra

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

open Cert.PinnSpec Idealize.ShloMosaic.ValueIdx

variable (m : (ℓ : Loc nD τ sig) → Buf (Elt Ideal) ℓ)

/-- The result buffer at the end holds the square root of the total. -/
theorem final_v4 (c : Dev nD) :
    V₂ (F := Ideal) m c (Proc.devRef .tc main_v4) = Host.sqrt (F := Ideal) (φ := .f32) (fun _ : S_.Idx => total (argOf m c)) := by
  show StableHlo.after hostOps1 (V₁ m c) (Proc.devRef .tc main_v4) = _
  rw [Cert.KernelIdeal.TailValue.tail_v4 (V₁ m c) (outArr m c) (V₁_v0 m c)]
  have e0 : (outArr m c : S2x8x128.Idx → EReal) (ix3 (0 : Fin 2) (0 : Fin 8) (0 : Fin 128)) = runSum (planeSum (argOf m c)) 31 :=
    (out_entry m c 0).trans (acc_eq m c ⟨31, by show 31 < grid0.N; rw [N_0]; omega⟩ _)
  have e1 : (outArr m c : S2x8x128.Idx → EReal) (ix3 (1 : Fin 2) (0 : Fin 8) (0 : Fin 128)) = runSum (planeSum (argOf m c)) 63 :=
    (out_entry m c 1).trans (acc_eq m c ⟨63, by show 63 < grid0.N; rw [N_0]; omega⟩ _)
  rw [e0, e1, total_eq_runs]

end Cert.KernelIdeal.Hand

end
-- ==== Proof.RefSide.lean ====
/-
  The reference read at one entry at the ideal instance: its squared array is the squared residual of the entry's
  batch entry, row and column (the four shifted copies it concatenates are the cyclic neighbours), and its result is
  the square root of the total.
-/
import proofs.«424194_j78881369358757_4_alg».proof.Proof.Gen.ReferenceIdeal.Run
import proofs.«424194_j78881369358757_4_alg».proof.Proof.Gen.ReferenceIdeal.Read
import proofs.«424194_j78881369358757_4_alg».proof.Proof.Spec
import proofs.«424194_j78881369358757_4_alg».proof.Proof.LibTableTotal
import Idealize.ShloMosaic.Lib.ValueIdx
import Idealize.ShloMosaic.Lib.Pipeline.Value
import Idealize.ShloMosaic.PureOps.Ideal.Laws

noncomputable section

namespace Cert.ReferenceIdeal.RefSide

open Idealize.ShloMosaic Idealize.ShloMosaic.ValueIdx Cert.ReferenceIdeal Cert.PinnSpec

/-- A plane slice of the argument at an entry: the argument read at the entry's batch entry, row and column in
    that plane (the slice's one-wide plane axis has only the coordinate zero). Here the predicted field, plane 3. -/
private theorem v0_at (a : S64x4x512x512.Idx → EReal) (j : S64x1x512x512.Idx) (n h w : ℕ)
    (h0 : (j 0).val = n) (h2 : (j 2).val = h) (h3 : (j 3).val = w) :
    Read.val_main_v0 (F := Ideal) a j = rd a n 3 h w := by
  have h1 : (j 1).val < 1 := (j 1).isLt
  subst h0 h2 h3
  rw [Read.val_main_v0_apply, ← rd_idx a (Read.idx_main_v0 j)]
  show rd a (j 0).val (3 + (j 1).val) (j 2).val (j 3).val = _
  rw [show 3 + (j 1).val = 3 by omega]

/-- The same for the field now, plane 2. -/
private theorem v1_at (a : S64x4x512x512.Idx → EReal) (j : S64x1x512x512.Idx) (n h w : ℕ)
    (h0 : (j 0).val = n) (h2 : (j 2).val = h) (h3 : (j 3).val = w) :
    Read.val_main_v1 (F := Ideal) a j = rd a n 2 h w := by
  have h1 : (j 1).val < 1 := (j 1).isLt
  subst h0 h2 h3
  rw [Read.val_main_v1_apply, ← rd_idx a (Read.idx_main_v1 j)]
  show rd a (j 0).val (2 + (j 1).val) (j 2).val (j 3).val = _
  rw [show 2 + (j 1).val = 2 by omega]

/-- The same for the field one step back, plane 1. -/
private theorem v2_at (a : S64x4x512x512.Idx → EReal) (j : S64x1x512x512.Idx) (n h w : ℕ)
    (h0 : (j 0).val = n) (h2 : (j 2).val = h) (h3 : (j 3).val = w) :
    Read.val_main_v2 (F := Ideal) a j = rd a n 1 h w := by
  have h1 : (j 1).val < 1 := (j 1).isLt
  subst h0 h2 h3
  rw [Read.val_main_v2_apply, ← rd_idx a (Read.idx_main_v2 j)]
  show rd a (j 0).val (1 + (j 1).val) (j 2).val (j 3).val = _
  rw [show 1 + (j 1).val = 1 by omega]

/-- The last column in front of the first 511: the left neighbour along a row, cyclically. -/
private theorem v3_at (a : S64x4x512x512.Idx → EReal) (i : S64x1x512x512.Idx) :
    Read.val_main_v3 (F := Ideal) a i = rd a (i 0).val 2 (i 2).val (((i 3).val + 511) % 512) := by
  have h3 : (i 3).val < 512 := (i 3).isLt
  unfold Read.val_main_v3
  by_cases hc : (i 3).val < 1
  · refine (concatenate_pair_apply_left (s₁ := S64x1x512x1) (s₂ := S64x1x512x511) (3 : Fin S64x1x512x512.rank) _ _ _ i rfl
      (ix4 (⟨(i 0).val, (i 0).isLt⟩ : Fin 64) (⟨(i 1).val, (i 1).isLt⟩ : Fin 1) (⟨(i 2).val, (i 2).isLt⟩ : Fin 512)
        (⟨(i 3).val, hc⟩ : Fin 1))
      (fun b => match b with | ⟨0, _⟩ => rfl | ⟨1, _⟩ => rfl | ⟨2, _⟩ => rfl | ⟨3, _⟩ => rfl)).trans ?_
    rw [Read.val_main_call0_v0_apply]
    exact v1_at a _ _ _ _ rfl rfl (by show 511 + (i 3).val = _; omega)
  · refine (concatenate_pair_apply_right (s₁ := S64x1x512x1) (s₂ := S64x1x512x511) (3 : Fin S64x1x512x512.rank) _ _ _ i rfl rfl
      (ix4 (⟨(i 0).val, (i 0).isLt⟩ : Fin 64) (⟨(i 1).val, (i 1).isLt⟩ : Fin 1) (⟨(i 2).val, (i 2).isLt⟩ : Fin 512)
        (⟨(i 3).val - 1, by omega⟩ : Fin 511))
      (fun b => match b with
        | ⟨0, _⟩ => fun _ => rfl | ⟨1, _⟩ => fun _ => rfl | ⟨2, _⟩ => fun _ => rfl
        | ⟨3, _⟩ => fun hne => absurd rfl hne)
      (by show (i 3).val - 1 + 1 = (i 3).val; omega)).trans ?_
    rw [Read.val_main_call0_v1_apply]
    exact v1_at a _ _ _ _ rfl rfl (by show (i 3).val - 1 = _; omega)

/-- The last 511 columns in front of the first: the right neighbour along a row, cyclically. -/
private theorem v4_at (a : S64x4x512x512.Idx → EReal) (i : S64x1x512x512.Idx) :
    Read.val_main_v4 (F := Ideal) a i = rd a (i 0).val 2 (i 2).val (((i 3).val + 1) % 512) := by
  have h3 : (i 3).val < 512 := (i 3).isLt
  unfold Read.val_main_v4
  by_cases hc : (i 3).val < 511
  · refine (concatenate_pair_apply_left (s₁ := S64x1x512x511) (s₂ := S64x1x512x1) (3 : Fin S64x1x512x512.rank) _ _ _ i rfl
      (ix4 (⟨(i 0).val, (i 0).isLt⟩ : Fin 64) (⟨(i 1).val, (i 1).isLt⟩ : Fin 1) (⟨(i 2).val, (i 2).isLt⟩ : Fin 512)
        (⟨(i 3).val, hc⟩ : Fin 511))
      (fun b => match b with | ⟨0, _⟩ => rfl | ⟨1, _⟩ => rfl | ⟨2, _⟩ => rfl | ⟨3, _⟩ => rfl)).trans ?_
    rw [Read.val_main_call1_v0_apply]
    exact v1_at a _ _ _ _ rfl rfl (by show 1 + (i 3).val = _; omega)
  · refine (concatenate_pair_apply_right (s₁ := S64x1x512x511) (s₂ := S64x1x512x1) (3 : Fin S64x1x512x512.rank) _ _ _ i rfl rfl
      (ix4 (⟨(i 0).val, (i 0).isLt⟩ : Fin 64) (⟨(i 1).val, (i 1).isLt⟩ : Fin 1) (⟨(i 2).val, (i 2).isLt⟩ : Fin 512)
        (⟨(i 3).val - 511, by omega⟩ : Fin 1))
      (fun b => match b with
        | ⟨0, _⟩ => fun _ => rfl | ⟨1, _⟩ => fun _ => rfl | ⟨2, _⟩ => fun _ => rfl
        | ⟨3, _⟩ => fun hne => absurd rfl hne)
      (by show (i 3).val - 511 + 511 = (i 3).val; omega)).trans ?_
    rw [Read.val_main_call1_v1_apply]
    exact v1_at a _ _ _ _ rfl rfl (by show (i 3).val - 511 = _; omega)

/-- The last row in front of the first 511: the neighbour one row up, cyclically. -/
private theorem v9_at (a : S64x4x512x512.Idx → EReal) (i : S64x1x512x512.Idx) :
    Read.val_main_v9 (F := Ideal) a i = rd a (i 0).val 2 (((i 2).val + 511) % 512) (i 3).val := by
  have h2 : (i 2).val < 512 := (i 2).isLt
  unfold Read.val_main_v9
  by_cases hc : (i 2).val < 1
  · refine (concatenate_pair_apply_left (s₁ := S64x1x1x512) (s₂ := S64x1x511x512) (2 : Fin S64x1x512x512.rank) _ _ _ i rfl
      (ix4 (⟨(i 0).val, (i 0).isLt⟩ : Fin 64) (⟨(i 1).val, (i 1).isLt⟩ : Fin 1) (⟨(i 2).val, hc⟩ : Fin 1)
        (⟨(i 3).val, (i 3).isLt⟩ : Fin 512))
      (fun b => match b with | ⟨0, _⟩ => rfl | ⟨1, _⟩ => rfl | ⟨2, _⟩ => rfl | ⟨3, _⟩ => rfl)).trans ?_
    rw [Read.val_main_call2_v0_apply]
    exact v1_at a _ _ _ _ rfl (by show 511 + (i 2).val = _; omega) rfl
  · refine (concatenate_pair_apply_right (s₁ := S64x1x1x512) (s₂ := S64x1x511x512) (2 : Fin S64x1x512x512.rank) _ _ _ i rfl rfl
      (ix4 (⟨(i 0).val, (i 0).isLt⟩ : Fin 64) (⟨(i 1).val, (i 1).isLt⟩ : Fin 1) (⟨(i 2).val - 1, by omega⟩ : Fin 511)
        (⟨(i 3).val, (i 3).isLt⟩ : Fin 512))
      (fun b => match b with
        | ⟨0, _⟩ => fun _ => rfl | ⟨1, _⟩ => fun _ => rfl | ⟨3, _⟩ => fun _ => rfl
        | ⟨2, _⟩ => fun hne => absurd rfl hne)
      (by show (i 2).val - 1 + 1 = (i 2).val; omega)).trans ?_
    rw [Read.val_main_call2_v1_apply]
    exact v1_at a _ _ _ _ rfl (by show (i 2).val - 1 = _; omega) rfl

/-- The last 511 rows in front of the first: the neighbour one row down, cyclically. -/
private theorem v10_at (a : S64x4x512x512.Idx → EReal) (i : S64x1x512x512.Idx) :
    Read.val_main_v10 (F := Ideal) a i = rd a (i 0).val 2 (((i 2).val + 1) % 512) (i 3).val := by
  have h2 : (i 2).val < 512 := (i 2).isLt
  unfold Read.val_main_v10
  by_cases hc : (i 2).val < 511
  · refine (concatenate_pair_apply_left (s₁ := S64x1x511x512) (s₂ := S64x1x1x512) (2 : Fin S64x1x512x512.rank) _ _ _ i rfl
      (ix4 (⟨(i 0).val, (i 0).isLt⟩ : Fin 64) (⟨(i 1).val, (i 1).isLt⟩ : Fin 1) (⟨(i 2).val, hc⟩ : Fin 511)
        (⟨(i 3).val, (i 3).isLt⟩ : Fin 512))
      (fun b => match b with | ⟨0, _⟩ => rfl | ⟨1, _⟩ => rfl | ⟨2, _⟩ => rfl | ⟨3, _⟩ => rfl)).trans ?_
    rw [Read.val_main_call3_v0_apply]
    exact v1_at a _ _ _ _ rfl (by show 1 + (i 2).val = _; omega) rfl
  · refine (concatenate_pair_apply_right (s₁ := S64x1x511x512) (s₂ := S64x1x1x512) (2 : Fin S64x1x512x512.rank) _ _ _ i rfl rfl
      (ix4 (⟨(i 0).val, (i 0).isLt⟩ : Fin 64) (⟨(i 1).val, (i 1).isLt⟩ : Fin 1) (⟨(i 2).val - 511, by omega⟩ : Fin 1)
        (⟨(i 3).val, (i 3).isLt⟩ : Fin 512))
      (fun b => match b with
        | ⟨0, _⟩ => fun _ => rfl | ⟨1, _⟩ => fun _ => rfl | ⟨3, _⟩ => fun _ => rfl
        | ⟨2, _⟩ => fun hne => absurd rfl hne)
      (by show (i 2).val - 511 + 511 = (i 2).val; omega)).trans ?_
    rw [Read.val_main_call3_v1_apply]
    exact v1_at a _ _ _ _ rfl (by show (i 2).val - 511 = _; omega) rfl

/-- The reference's residual array at an entry is the residual there: the scaled second differences along the row
    and along the column, plus twice the field now, less the field one step back and the predicted field. -/
private theorem v24_at (a : S64x4x512x512.Idx → EReal) (i : S64x1x512x512.Idx) :
    Read.val_main_v24 (F := Ideal) a i = res a (i 0).val (i 2).val (i 3).val := by
  rw [Read.val_main_v24_apply, Read.val_main_v23_apply, Read.val_main_v22_apply, Read.val_main_v19_apply,
    Read.val_main_v21_apply, Read.val_main_v16_apply, Read.val_main_v18_apply, Read.val_main_v8_apply,
    Read.val_main_v14_apply, Read.val_main_v5_apply, Read.val_main_v7_apply, Read.val_main_v11_apply,
    Read.val_main_v13_apply, Read.val_main_v6_apply, Read.val_main_v12_apply, Read.val_main_v15_apply,
    Read.val_main_v17_apply, Read.val_main_v20_apply, Read.val_main_cst_apply, Read.val_main_cst_0_apply,
    Read.val_main_cst_1_apply, Read.val_main_cst_2_apply, Read.val_main_cst_3_apply,
    v3_at, v4_at, v9_at, v10_at, v1_at a i _ _ _ rfl rfl rfl, v0_at a i _ _ _ rfl rfl rfl,
    v2_at a i _ _ _ rfl rfl rfl]
  simp only [Ideal.ofBits_def, Ideal.addf_def, Ideal.subf_def, Ideal.mulf_def]
  unfold res cP c2
  rfl

/-- The reference's squared array at an entry is the squared residual there. -/
theorem sq_apply (a : S64x4x512x512.Idx → EReal) (i : S64x1x512x512.Idx) :
    Read.val_main_v25 (F := Ideal) a i = rsq a (i 0).val (i 2).val (i 3).val := by
  rw [Read.val_main_v25_apply, v24_at, Ideal.mulf_def]
  rfl

/-- The reference's result is the square root of the total. -/
theorem result_eq (a : S64x4x512x512.Idx → EReal) :
    Read.val_main_v27 (F := Ideal) a = Host.sqrt (F := Ideal) (φ := .f32) (fun _ : S_.Idx => total a) := by
  funext k
  rw [Read.val_main_v27_apply, Read.val_main_v26_apply, Read.val_main_cst_4_apply, Ideal.ofBits_def,
    Ideal.ofBits_zero_f32, zero_add]
  unfold Host.sqrt total
  exact congrArg _ (Finset.sum_congr rfl (fun i _ => sq_apply a i))

end Cert.ReferenceIdeal.RefSide

end
-- ==== Proof.lean ====
/-
  The residual norm of the discrete wave equation: a Pallas kernel against its jnp reference, over the extended reals.

  Both programs take 64 batch entries of four 512 × 512 planes and return the square root of the sum, over every batch
  entry, row and column, of the squared residual
      p·(u(h, w−1) + u(h, w+1) − 2u(h, w)) + p·(u(h−1, w) + u(h+1, w) − 2u(h, w)) + 2u(h, w) − u₋(h, w) − u₊(h, w),
  neighbours cyclic, with the same two float literals p and 2. The reference builds the four shifted copies by
  concatenating slices and sums everything at once. The kernel walks the batch entries on a 2 × 32 grid, rotates the
  plane in place of the shifts, reduces each plane to a scalar, accumulates the scalars of a row of 32 in a scratch
  buffer and writes the accumulator out at the row's end; two host operations then add the two rows' sums. Since
  addition of extended reals is commutative and associative, the grouping does not matter, and no finiteness is used.

  The kernel reads the one argument array through three windows. Its run is stated once for every float instance
  (the word-level program and its idealization have the same text): the region entered with the array's share dealt
  in three and left with it joined again, the accumulator carried by the region's invariant, the host operations run
  over what the region left.
-/
import proofs.«424194_j78881369358757_4_alg».proof.Defs
import proofs.«424194_j78881369358757_4_alg».proof.Proof.Gen.Kernel
import proofs.«424194_j78881369358757_4_alg».proof.Proof.Gen.KernelIdeal
import proofs.«424194_j78881369358757_4_alg».proof.Proof.Gen.ReferenceIdeal
import proofs.«424194_j78881369358757_4_alg».proof.Proof.Gen.Pre_finite_inputs
import proofs.«424194_j78881369358757_4_alg».proof.Proof.Gen.ReferenceIdeal.Run
import proofs.«424194_j78881369358757_4_alg».proof.Proof.Gen.ReferenceIdeal.Read
import proofs.«424194_j78881369358757_4_alg».proof.Proof.KFinal
import proofs.«424194_j78881369358757_4_alg».proof.Proof.KIValue
import proofs.«424194_j78881369358757_4_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_k : Cert.frame_Kernel := fun m ρ _ =>
  (θ_run Cert.Kernel.defs _ _).mono (fun _ h c => ((h c).2).trans (Cert.Kernel.Hand.final_arg0 m c))
    (Cert.Kernel.Hand.run_main (F := Bits) m ρ)

/-- So does its idealization. -/
theorem frame_ki : Cert.frame_KernelIdeal := fun m ρ _ =>
  (θ_run Cert.KernelIdeal.defs _ _).mono (fun _ h c => ((h c).2).trans (Cert.KernelIdeal.Hand.final_arg0 m c))
    (Cert.KernelIdeal.Hand.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the square root of the total of the squared residual of the argument. -/
theorem algebraic : Cert.algebraic_KernelIdeal_ReferenceIdeal := by
  intro m ρ m' ρ' _ hagree
  refine ⟨fun c => Host.sqrt (F := Ideal) (φ := .f32)
    (fun _ : Cert.KernelIdeal.S_.Idx => Cert.PinnSpec.total (Cert.KernelIdeal.Hand.argOf m c)), ?_, ?_⟩
  · exact (θ_run Cert.KernelIdeal.defs _ _).mono
      (fun _ h c => ⟨((h c).1).trans (Cert.KernelIdeal.Hand.final_v4 m c), ((h c).2).trans (Cert.KernelIdeal.Hand.final_arg0 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefSide.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
